-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x6x500 : Shape := ⟨3, ![64, 6, 500]⟩
abbrev S12x6 : Shape := ⟨2, ![12, 6]⟩
abbrev S12 : Shape := ⟨1, ![12]⟩
abbrev S15x12 : Shape := ⟨2, ![15, 12]⟩
abbrev S15 : Shape := ⟨1, ![15]⟩
abbrev S4000x15 : Shape := ⟨2, ![4000, 15]⟩
abbrev S4000 : Shape := ⟨1, ![4000]⟩
abbrev S_ : Shape := ⟨0, ![]⟩

class Facts : Prop where
  bcast_S_S64x6x500 : S_.BroadcastsInDim S64x6x500 (![] : Fin 0 → Fin S64x6x500.rank)
  reducesTo_S64x6x500_S_d0_1_2 : S64x6x500.ReducesTo [0, 1, 2] S_
  h_S_ : 0 < S_.numel
  bcast_S_S12x6 : S_.BroadcastsInDim S12x6 (![] : Fin 0 → Fin S12x6.rank)
  reducesTo_S12x6_S_d0_1 : S12x6.ReducesTo [0, 1] S_
  bcast_S_S12 : S_.BroadcastsInDim S12 (![] : Fin 0 → Fin S12.rank)
  reducesTo_S12_S_d0 : S12.ReducesTo [0] S_
  bcast_S_S15x12 : S_.BroadcastsInDim S15x12 (![] : Fin 0 → Fin S15x12.rank)
  reducesTo_S15x12_S_d0_1 : S15x12.ReducesTo [0, 1] S_
  bcast_S_S15 : S_.BroadcastsInDim S15 (![] : Fin 0 → Fin S15.rank)
  reducesTo_S15_S_d0 : S15.ReducesTo [0] S_
  bcast_S_S4000x15 : S_.BroadcastsInDim S4000x15 (![] : Fin 0 → Fin S4000x15.rank)
  reducesTo_S4000x15_S_d0_1 : S4000x15.ReducesTo [0, 1] S_
  bcast_S_S4000 : S_.BroadcastsInDim S4000 (![] : Fin 0 → Fin S4000.rank)
  reducesTo_S4000_S_d0 : S4000.ReducesTo [0] S_

variable [Facts]

def fn_part1 {F : FTy → Type} [FloatOps F] (main_arg4 : FVec F S15 .f32) (main_arg5 : FVec F S4000x15 .f32) (main_arg6 : FVec F S4000 .f32) (main_v13 : IVec S_ 1) (main_v16 : IVec S15x12 1) : IVec S_ 1 :=
  let main_c_5 : IVec S_ 1 := constantI S_ 1 1#1
  let main_v17 : IVec S_ 1 := (fun x v => Host.reduce IntOp.andi x v reducesTo_S15x12_S_d0_1 h_S_) main_v16 main_c_5
  let main_v18 : IVec S_ 1 := andi main_v13 main_v17
  let main_v19 : FVec F S15 .f32 := Host.absf main_arg4
  let main_cst_6 : FVec F S_ .f32 := constant S_ .f32 0x7F800000#32
  let main_v20 : FVec F S15 .f32 := broadcastInDim S15 ![] bcast_S_S15 main_cst_6
  let main_v21 : IVec S15 1 := cmpf .olt main_v19 main_v20
  let main_c_7 : IVec S_ 1 := constantI S_ 1 1#1
  let main_v22 : IVec S_ 1 := (fun x v => Host.reduce IntOp.andi x v reducesTo_S15_S_d0 h_S_) main_v21 main_c_7
  let main_v23 : IVec S_ 1 := andi main_v18 main_v22
  let main_v24 : FVec F S4000x15 .f32 := Host.absf main_arg5
  let main_cst_8 : FVec F S_ .f32 := constant S_ .f32 0x7F800000#32
  let main_v25 : FVec F S4000x15 .f32 := broadcastInDim S4000x15 ![] bcast_S_S4000x15 main_cst_8
  let main_v26 : IVec S4000x15 1 := cmpf .olt main_v24 main_v25
  let main_c_9 : IVec S_ 1 := constantI S_ 1 1#1
  let main_v27 : IVec S_ 1 := (fun x v => Host.reduce IntOp.andi x v reducesTo_S4000x15_S_d0_1 h_S_) main_v26 main_c_9
  let main_v28 : IVec S_ 1 := andi main_v23 main_v27
  let main_v29 : FVec F S4000 .f32 := Host.absf main_arg6
  let main_cst_10 : FVec F S_ .f32 := constant S_ .f32 0x7F800000#32
  let main_v30 : FVec F S4000 .f32 := broadcastInDim S4000 ![] bcast_S_S4000 main_cst_10
  let main_v31 : IVec S4000 1 := cmpf .olt main_v29 main_v30
  let main_c_11 : IVec S_ 1 := constantI S_ 1 1#1
  let main_v32 : IVec S_ 1 := (fun x v => Host.reduce IntOp.andi x v reducesTo_S4000_S_d0 h_S_) main_v31 main_c_11
  let main_v33 : IVec S_ 1 := andi main_v28 main_v32
  main_v33

def fn {F : FTy → Type} [FloatOps F] (main_arg0 : FVec F S64x6x500 .f32) (main_arg1 : FVec F S12x6 .f32) (main_arg2 : FVec F S12 .f32) (main_arg3 : FVec F S15x12 .f32) (main_arg4 : FVec F S15 .f32) (main_arg5 : FVec F S4000x15 .f32) (main_arg6 : FVec F S4000 .f32) : IVec S_ 1 :=
  let main_v0 : FVec F S64x6x500 .f32 := Host.absf main_arg0
  let main_cst : FVec F S_ .f32 := constant S_ .f32 0x7F800000#32
  let main_v1 : FVec F S64x6x500 .f32 := broadcastInDim S64x6x500 ![] bcast_S_S64x6x500 main_cst
  let main_v2 : IVec S64x6x500 1 := cmpf .olt main_v0 main_v1
  let main_c : IVec S_ 1 := constantI S_ 1 1#1
  let main_v3 : IVec S_ 1 := (fun x v => Host.reduce IntOp.andi x v reducesTo_S64x6x500_S_d0_1_2 h_S_) main_v2 main_c
  let main_v4 : FVec F S12x6 .f32 := Host.absf main_arg1
  let main_cst_0 : FVec F S_ .f32 := constant S_ .f32 0x7F800000#32
  let main_v5 : FVec F S12x6 .f32 := broadcastInDim S12x6 ![] bcast_S_S12x6 main_cst_0
  let main_v6 : IVec S12x6 1 := cmpf .olt main_v4 main_v5
  let main_c_1 : IVec S_ 1 := constantI S_ 1 1#1
  let main_v7 : IVec S_ 1 := (fun x v => Host.reduce IntOp.andi x v reducesTo_S12x6_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S15x12 .f32 := Host.absf main_arg3
  let main_cst_4 : FVec F S_ .f32 := constant S_ .f32 0x7F800000#32
  let main_v15 : FVec F S15x12 .f32 := broadcastInDim S15x12 ![] bcast_S_S15x12 main_cst_4
  let main_v16 : IVec S15x12 1 := cmpf .olt main_v14 main_v15
  fn_part1 (F := F) main_arg4 main_arg5 main_arg6 main_v13 main_v16
-- ==== Kernel.lean ====
abbrev S64x6x500 : Shape := ⟨3, ![64, 6, 500]⟩
abbrev S12x6 : Shape := ⟨2, ![12, 6]⟩
abbrev S12 : Shape := ⟨1, ![12]⟩
abbrev S15x12 : Shape := ⟨2, ![15, 12]⟩
abbrev S15 : Shape := ⟨1, ![15]⟩
abbrev S4000x15 : Shape := ⟨2, ![4000, 15]⟩
abbrev S4000 : Shape := ⟨1, ![4000]⟩
abbrev S6x12 : Shape := ⟨2, ![6, 12]⟩
abbrev S12x15 : Shape := ⟨2, ![12, 15]⟩
abbrev S15x4000 : Shape := ⟨2, ![15, 4000]⟩
abbrev S1x12 : Shape := ⟨2, ![1, 12]⟩
abbrev S1x15 : Shape := ⟨2, ![1, 15]⟩
abbrev S1x4000 : Shape := ⟨2, ![1, 4000]⟩
abbrev S64x4000 : Shape := ⟨2, ![64, 4000]⟩
abbrev S8x6x500 : Shape := ⟨3, ![8, 6, 500]⟩
abbrev S8x4000 : Shape := ⟨2, ![8, 4000]⟩
abbrev S8x6x100 : Shape := ⟨3, ![8, 6, 100]⟩
abbrev S8x100x6 : Shape := ⟨3, ![8, 100, 6]⟩
abbrev S800x6 : Shape := ⟨2, ![800, 6]⟩
abbrev S800x12 : Shape := ⟨2, ![800, 12]⟩
abbrev S800x15 : Shape := ⟨2, ![800, 15]⟩
abbrev S800x4000 : Shape := ⟨2, ![800, 4000]⟩
abbrev S8x100x4000 : Shape := ⟨3, ![8, 100, 4000]⟩

abbrev nBuf : Space → Nat
  | .hbm => 14
  | .vmem => 10
  | .smem => 0
  | _ => 0

abbrev bufTy : (tb : Table) → Fin (tcTables nBuf tb) → BufTy
  | .hbm, ⟨0, _⟩ => ⟨S64x6x500, .f32⟩
  | .hbm, ⟨1, _⟩ => ⟨S12x6, .f32⟩
  | .hbm, ⟨2, _⟩ => ⟨S12, .f32⟩
  | .hbm, ⟨3, _⟩ => ⟨S15x12, .f32⟩
  | .hbm, ⟨4, _⟩ => ⟨S15, .f32⟩
  | .hbm, ⟨5, _⟩ => ⟨S4000x15, .f32⟩
  | .hbm, ⟨6, _⟩ => ⟨S4000, .f32⟩
  | .hbm, ⟨7, _⟩ => ⟨S6x12, .f32⟩
  | .hbm, ⟨8, _⟩ => ⟨S12x15, .f32⟩
  | .hbm, ⟨9, _⟩ => ⟨S15x4000, .f32⟩
  | .hbm, ⟨10, _⟩ => ⟨S1x12, .f32⟩
  | .hbm, ⟨11, _⟩ => ⟨S1x15, .f32⟩
  | .hbm, ⟨12, _⟩ => ⟨S1x4000, .f32⟩
  | .hbm, ⟨13, _⟩ => ⟨S64x4000, .f32⟩
  | .local _ .vmem, ⟨0, _⟩ => ⟨S8x6x500, .f32⟩
  | .local _ .vmem, ⟨1, _⟩ => ⟨S8x6x500, .f32⟩
  | .local _ .vmem, ⟨2, _⟩ => ⟨S6x12, .f32⟩
  | .local _ .vmem, ⟨3, _⟩ => ⟨S1x12, .f32⟩
  | .local _ .vmem, ⟨4, _⟩ => ⟨S12x15, .f32⟩
  | .local _ .vmem, ⟨5, _⟩ => ⟨S1x15, .f32⟩
  | .local _ .vmem, ⟨6, _⟩ => ⟨S15x4000, .f32⟩
  | .local _ .vmem, ⟨7, _⟩ => ⟨S1x4000, .f32⟩
  | .local _ .vmem, ⟨8, _⟩ => ⟨S8x4000, .f32⟩
  | .local _ .vmem, ⟨9, _⟩ => ⟨S8x4000, .f32⟩
  | _, _ => ⟨S64x6x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c100_i32 : BitVec 32 := 100#32
  let v13 : BitVec 32 := Scalar.muli c0_i32 c100_i32
  v13
def k0_off1 (c0_i32 : BitVec 32) : Fin 3 → Nat :=
  let c0_11 : Index := 0#32
  let c0_12 : Index := 0#32
  let c100_i32 : BitVec 32 := 100#32
  let v13 : BitVec 32 := Scalar.muli c0_i32 c100_i32
  let v14 : BitVec 32 := v13
  let v15 : Index := Scalar.indexCast v14
  ![0, 0, v15.toNat]
def k0_mult2 : BitVec 32 :=
  let c1_i32 : BitVec 32 := 1#32
  let c100_i32_23 : BitVec 32 := 100#32
  let v55 : BitVec 32 := Scalar.muli c1_i32 c100_i32_23
  v55
def k0_mult3 : BitVec 32 :=
  let c2_i32 : BitVec 32 := 2#32
  let c100_i32_36 : BitVec 32 := 100#32
  let v97 : BitVec 32 := Scalar.muli c2_i32 c100_i32_36
  v97
def k0_mult4 : BitVec 32 :=
  let c3_i32 : BitVec 32 := 3#32
  let c100_i32_49 : BitVec 32 := 100#32
  let v139 : BitVec 32 := Scalar.muli c3_i32 c100_i32_49
  v139
def k0_mult5 : BitVec 32 :=
  let c4_i32 : BitVec 32 := 4#32
  let c100_i32_62 : BitVec 32 := 100#32
  let v181 : BitVec 32 := Scalar.muli c4_i32 c100_i32_62
  v181
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x6x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x15 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x4000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x4000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S12x6_S6x12_1_0 : S12x6.Transposes [1, 0] S6x12
  transposes_S15x12_S12x15_1_0 : S15x12.Transposes [1, 0] S12x15
  transposes_S4000x15_S15x4000_1_0 : S4000x15.Transposes [1, 0] S15x4000
  shapeCasts_S12_S1x12 : S12.ShapeCasts S1x12
  shapeCasts_S15_S1x15 : S15.ShapeCasts S1x15
  shapeCasts_S4000_S1x4000 : S4000.ShapeCasts S1x4000
  inb_S6x12_S6x12_0_0 : ∀ a, (![0, 0] : Fin 2 → Nat) a + S6x12.size a ≤ S6x12.size a
  h_S6x12 : 0 < S6x12.numel
  shapeCasts_S6x12_S6x12 : S6x12.ShapeCasts S6x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  inb_S12x15_S12x15_0_0 : ∀ a, (![0, 0] : Fin 2 → Nat) a + S12x15.size a ≤ S12x15.size a
  h_S12x15 : 0 < S12x15.numel
  shapeCasts_S12x15_S12x15 : S12x15.ShapeCasts S12x15
  inb_S1x15_S1x15_0_0 : ∀ a, (![0, 0] : Fin 2 → Nat) a + S1x15.size a ≤ S1x15.size a
  h_S1x15 : 0 < S1x15.numel
  shapeCasts_S1x15_S1x15 : S1x15.ShapeCasts S1x15
  inb_S15x4000_S15x4000_0_0 : ∀ a, (![0, 0] : Fin 2 → Nat) a + S15x4000.size a ≤ S15x4000.size a
  h_S15x4000 : 0 < S15x4000.numel
  shapeCasts_S15x4000_S15x4000 : S15x4000.ShapeCasts S15x4000
  inb_S1x4000_S1x4000_0_0 : ∀ a, (![0, 0] : Fin 2 → Nat) a + S1x4000.size a ≤ S1x4000.size a
  h_S1x4000 : 0 < S1x4000.numel
  shapeCasts_S1x4000_S1x4000 : S1x4000.ShapeCasts S1x4000
  h_S8x6x100 : 0 < S8x6x100.numel
  transposes_S8x6x100_p0_2_1_S8x100x6 : S8x6x100.Transposes [0, 2, 1] S8x100x6
  shapeCasts_S8x100x6_S800x6 : S8x100x6.ShapeCasts S800x6
  broadcasts_S1x12_S800x12 : S1x12.Broadcasts S800x12
  broadcasts_S1x15_S800x15 : S1x15.Broadcasts S800x15
  broadcasts_S1x4000_S800x4000 : S1x4000.Broadcasts S800x4000
  shapeCasts_S800x4000_S8x100x4000 : S800x4000.ShapeCasts S8x100x4000
  reduces_S8x100x4000_S8x4000 : S8x100x4000.Reduces [1] S8x4000
  inb_S8x4000_S8x4000_0_0 : ∀ a, (![0, 0] : Fin 2 → Nat) a + S8x4000.size a ≤ S8x4000.size a
  h_S8x4000 : 0 < S8x4000.numel
  dot_S800x6_S6x12_S800x12_1_0_0_1_n_n_wf : DotDims.WF S800x6 S6x12 S800x12 [1] [0] [0] [1] [] []
  dot_S800x12_S12x15_S800x15_1_0_0_1_n_n_wf : DotDims.WF S800x12 S12x15 S800x15 [1] [0] [0] [1] [] []
  dot_S800x15_S15x4000_S800x4000_1_0_0_1_n_n_wf : DotDims.WF S800x15 S15x4000 S800x4000 [1] [0] [0] [1] [] []
  hrank0 : 0 < grid0.rank
  k0_mult1_dvd : 100 ∣ k0_mult1.toNat
  k0_off1_inb : ∀ (r : Fin 5), ∀ a, (k0_off1 (BitVec.ofNat 32 r.val)) a + S8x6x100.size a ≤ S8x6x500.size a
  k0_mult2_dvd : 100 ∣ k0_mult2.toNat
  k0_mult3_dvd : 100 ∣ k0_mult3.toNat
  k0_mult4_dvd : 100 ∣ k0_mult4.toNat
  k0_mult5_dvd : 100 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x6x500.size a ≤ S64x6x500.size a
  hwx0_0 : ∀ i : grid0.Coords, EltTy.bits .f32 = 32 ∨ (Rect.block (s := S64x6x500) S8x6x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x12.size a ≤ S6x12.size a
  hwx0_1 : ∀ i : grid0.Coords, EltTy.bits .f32 = 32 ∨ (Rect.block (s := S6x12) S6x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12.size a ≤ S1x12.size a
  hwx0_2 : ∀ i : grid0.Coords, EltTy.bits .f32 = 32 ∨ (Rect.block (s := S1x12) S1x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x15.size a ≤ S12x15.size a
  hwx0_3 : ∀ i : grid0.Coords, EltTy.bits .f32 = 32 ∨ (Rect.block (s := S12x15) S12x15.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x15.size a ≤ S1x15.size a
  hwx0_4 : ∀ i : grid0.Coords, EltTy.bits .f32 = 32 ∨ (Rect.block (s := S1x15) S1x15.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x4000.size a ≤ S15x4000.size a
  hwx0_5 : ∀ i : grid0.Coords, EltTy.bits .f32 = 32 ∨ (Rect.block (s := S15x4000) S15x4000.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4000.size a ≤ S1x4000.size a
  hwx0_6 : ∀ i : grid0.Coords, EltTy.bits .f32 = 32 ∨ (Rect.block (s := S1x4000) S1x4000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x4000.size a ≤ S64x4000.size a
  hwx0_7 : ∀ i : grid0.Coords, EltTy.bits .f32 = 32 ∨ (Rect.block (s := S64x4000) S8x4000.size (cc0_transform_7 i) (hinb0_7 i)).WholeWords (EltTy.packing .f32)

variable [Facts₀]

def dot_S800x6_S6x12_S800x12_1_0_0_1_n_n : DotDims S800x6 S6x12 S800x12 where
  lhsContracting := [1]
  rhsContracting := [0]
  lhsNonContracting := [0]
  rhsNonContracting := [1]
  lhsBatch := []
  rhsBatch := []
  wf := dot_S800x6_S6x12_S800x12_1_0_0_1_n_n_wf
def dot_S800x12_S12x15_S800x15_1_0_0_1_n_n : DotDims S800x12 S12x15 S800x15 where
  lhsContracting := [1]
  rhsContracting := [0]
  lhsNonContracting := [0]
  rhsNonContracting := [1]
  lhsBatch := []
  rhsBatch := []
  wf := dot_S800x12_S12x15_S800x15_1_0_0_1_n_n_wf
def dot_S800x15_S15x4000_S800x4000_1_0_0_1_n_n : DotDims S800x15 S15x4000 S800x4000 where
  lhsContracting := [1]
  rhsContracting := [0]
  lhsNonContracting := [0]
  rhsNonContracting := [1]
  lhsBatch := []
  rhsBatch := []
  wf := dot_S800x15_S15x4000_S800x4000_1_0_0_1_n_n_wf

abbrev win0_0 : Pipeline.Window sig grid0 :=
  Pipeline.Window.ofSpec (Memref.whole main_arg0) S8x6x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S6x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S12x15.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x15.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S15x4000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S8x4000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x6x500 : Shape := ⟨3, ![64, 6, 500]⟩
abbrev S12x6 : Shape := ⟨2, ![12, 6]⟩
abbrev S12 : Shape := ⟨1, ![12]⟩
abbrev S15x12 : Shape := ⟨2, ![15, 12]⟩
abbrev S15 : Shape := ⟨1, ![15]⟩
abbrev S4000x15 : Shape := ⟨2, ![4000, 15]⟩
abbrev S4000 : Shape := ⟨1, ![4000]⟩
abbrev S64x500x6 : Shape := ⟨3, ![64, 500, 6]⟩
abbrev S64x500x12 : Shape := ⟨3, ![64, 500, 12]⟩
abbrev S1x1x12 : Shape := ⟨3, ![1, 1, 12]⟩
abbrev S_ : Shape := ⟨0, ![]⟩
abbrev S64x500x15 : Shape := ⟨3, ![64, 500, 15]⟩
abbrev S1x1x15 : Shape := ⟨3, ![1, 1, 15]⟩
abbrev S64x500x4000 : Shape := ⟨3, ![64, 500, 4000]⟩
abbrev S1x1x4000 : Shape := ⟨3, ![1, 1, 4000]⟩
abbrev S64x4000 : Shape := ⟨2, ![64, 4000]⟩

abbrev nBuf : Space → Nat
  | .hbm => 50
  | .vmem => 0
  | .smem => 0
  | _ => 0

abbrev bufTy : (tb : Table) → Fin (tcTables nBuf tb) → BufTy
  | .hbm, ⟨0, _⟩ => ⟨S64x6x500, .f32⟩
  | .hbm, ⟨1, _⟩ => ⟨S12x6, .f32⟩
  | .hbm, ⟨2, _⟩ => ⟨S12, .f32⟩
  | .hbm, ⟨3, _⟩ => ⟨S15x12, .f32⟩
  | .hbm, ⟨4, _⟩ => ⟨S15, .f32⟩
  | .hbm, ⟨5, _⟩ => ⟨S4000x15, .f32⟩
  | .hbm, ⟨6, _⟩ => ⟨S4000, .f32⟩
  | .hbm, ⟨7, _⟩ => ⟨S64x500x6, .f32⟩
  | .hbm, ⟨8, _⟩ => ⟨S64x500x12, .f32⟩
  | .hbm, ⟨9, _⟩ => ⟨S1x1x12, .f32⟩
  | .hbm, ⟨10, _⟩ => ⟨S64x500x12, .f32⟩
  | .hbm, ⟨11, _⟩ => ⟨S64x500x12, .f32⟩
  | .hbm, ⟨12, _⟩ => ⟨S_, .f32⟩
  | .hbm, ⟨13, _⟩ => ⟨S64x500x12, .f32⟩
  | .hbm, ⟨14, _⟩ => ⟨S64x500x12, .i1⟩
  | .hbm, ⟨15, _⟩ => ⟨S_, .f32⟩
  | .hbm, ⟨16, _⟩ => ⟨S64x500x12, .f32⟩
  | .hbm, ⟨17, _⟩ => ⟨S64x500x12, .f32⟩
  | .hbm, ⟨18, _⟩ => ⟨S64x500x12, .f32⟩
  | .hbm, ⟨19, _⟩ => ⟨S64x500x15, .f32⟩
  | .hbm, ⟨20, _⟩ => ⟨S1x1x15, .f32⟩
  | .hbm, ⟨21, _⟩ => ⟨S64x500x15, .f32⟩
  | .hbm, ⟨22, _⟩ => ⟨S64x500x15, .f32⟩
  | .hbm, ⟨23, _⟩ => ⟨S_, .f32⟩
  | .hbm, ⟨24, _⟩ => ⟨S64x500x15, .f32⟩
  | .hbm, ⟨25, _⟩ => ⟨S64x500x15, .i1⟩
  | .hbm, ⟨26, _⟩ => ⟨S_, .f32⟩
  | .hbm, ⟨27, _⟩ => ⟨S64x500x15, .f32⟩
  | .hbm, ⟨28, _⟩ => ⟨S64x500x15, .f32⟩
  | .hbm, ⟨29, _⟩ => ⟨S64x500x15, .f32⟩
  | .hbm, ⟨30, _⟩ => ⟨S64x500x4000, .f32⟩
  | .hbm, ⟨31, _⟩ => ⟨S1x1x4000, .f32⟩
  | .hbm, ⟨32, _⟩ => ⟨S64x500x4000, .f32⟩
  | .hbm, ⟨33, _⟩ => ⟨S64x500x4000, .f32⟩
  | .hbm, ⟨34, _⟩ => ⟨S_, .f32⟩
  | .hbm, ⟨35, _⟩ => ⟨S64x500x4000, .f32⟩
  | .hbm, ⟨36, _⟩ => ⟨S64x500x4000, .f32⟩
  | .hbm, ⟨37, _⟩ => ⟨S64x500x4000, .f32⟩
  | .hbm, ⟨38, _⟩ => ⟨S64x500x4000, .f32⟩
  | .hbm, ⟨39, _⟩ => ⟨S64x500x4000, .i1⟩
  | .hbm, ⟨40, _⟩ => ⟨S64x500x4000, .f32⟩
  | .hbm, ⟨41, _⟩ => ⟨S64x500x4000, .f32⟩
  | .hbm, ⟨42, _⟩ => ⟨S64x500x4000, .f32⟩
  | .hbm, ⟨43, _⟩ => ⟨S64x500x4000, .f32⟩
  | .hbm, ⟨44, _⟩ => ⟨S64x500x4000, .f32⟩
  | .hbm, ⟨45, _⟩ => ⟨S64x500x4000, .f32⟩
  | .hbm, ⟨46, _⟩ => ⟨S64x500x4000, .f32⟩
  | .hbm, ⟨47, _⟩ => ⟨S64x500x4000, .f32⟩
  | .hbm, ⟨48, _⟩ => ⟨S_, .f32⟩
  | .hbm, ⟨49, _⟩ => ⟨S64x4000, .f32⟩
  | _, _ => ⟨S64x6x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call2_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩

abbrev nD : Nat := 1
abbrev τ : Topo := Topo.v7x

variable {F : FTy → Type} [FloatOps F]

class Facts₀ : Prop where
  transposes_S64x6x500_S64x500x6_0_2_1 : S64x6x500.Transposes [0, 2, 1] S64x500x6
  bcast_S12_S1x1x12_2 : S12.BroadcastsInDim S1x1x12 (![2] : Fin 1 → Fin S1x1x12.rank)
  bcast_S1x1x12_S64x500x12_0_1_2 : S1x1x12.BroadcastsInDim S64x500x12 (![0, 1, 2] : Fin 3 → Fin S64x500x12.rank)
  bcast_S_S64x500x12 : S_.BroadcastsInDim S64x500x12 (![] : Fin 0 → Fin S64x500x12.rank)
  bcast_S15_S1x1x15_2 : S15.BroadcastsInDim S1x1x15 (![2] : Fin 1 → Fin S1x1x15.rank)
  bcast_S1x1x15_S64x500x15_0_1_2 : S1x1x15.BroadcastsInDim S64x500x15 (![0, 1, 2] : Fin 3 → Fin S64x500x15.rank)
  bcast_S_S64x500x15 : S_.BroadcastsInDim S64x500x15 (![] : Fin 0 → Fin S64x500x15.rank)
  bcast_S4000_S1x1x4000_2 : S4000.BroadcastsInDim S1x1x4000 (![2] : Fin 1 → Fin S1x1x4000.rank)
  bcast_S1x1x4000_S64x500x4000_0_1_2 : S1x1x4000.BroadcastsInDim S64x500x4000 (![0, 1, 2] : Fin 3 → Fin S64x500x4000.rank)
  bcast_S_S64x500x4000 : S_.BroadcastsInDim S64x500x4000 (![] : Fin 0 → Fin S64x500x4000.rank)
  reducesTo_S64x500x4000_S64x4000_d1 : S64x500x4000.ReducesTo [1] S64x4000
  h_S_ : 0 < S_.numel
  dot_S64x500x6_S12x6_S64x500x12_2_1_01_0_n_n_wf : DotDims.WF S64x500x6 S12x6 S64x500x12 [2] [1] [0, 1] [0] [] []
  dot_S64x500x12_S15x12_S64x500x15_2_1_01_0_n_n_wf : DotDims.WF S64x500x12 S15x12 S64x500x15 [2] [1] [0, 1] [0] [] []
  dot_S64x500x15_S4000x15_S64x500x4000_2_1_01_0_n_n_wf : DotDims.WF S64x500x15 S4000x15 S64x500x4000 [2] [1] [0, 1] [0] [] []

variable [Facts₀]

def dot_S64x500x6_S12x6_S64x500x12_2_1_01_0_n_n : DotDims S64x500x6 S12x6 S64x500x12 where
  lhsContracting := [2]
  rhsContracting := [1]
  lhsNonContracting := [0, 1]
  rhsNonContracting := [0]
  lhsBatch := []
  rhsBatch := []
  wf := dot_S64x500x6_S12x6_S64x500x12_2_1_01_0_n_n_wf
def dot_S64x500x12_S15x12_S64x500x15_2_1_01_0_n_n : DotDims S64x500x12 S15x12 S64x500x15 where
  lhsContracting := [2]
  rhsContracting := [1]
  lhsNonContracting := [0, 1]
  rhsNonContracting := [0]
  lhsBatch := []
  rhsBatch := []
  wf := dot_S64x500x12_S15x12_S64x500x15_2_1_01_0_n_n_wf
def dot_S64x500x15_S4000x15_S64x500x4000_2_1_01_0_n_n : DotDims S64x500x15 S4000x15 S64x500x4000 where
  lhsContracting := [2]
  rhsContracting := [1]
  lhsNonContracting := [0, 1]
  rhsNonContracting := [0]
  lhsBatch := []
  rhsBatch := []
  wf := dot_S64x500x15_S4000x15_S64x500x4000_2_1_01_0_n_n_wf

class Facts : Prop extends Facts₀ where

variable [Facts]
-- ==== Proof.Spec.lean ====
/-
  The network both programs compute, written once over plain index types.

  For one track, a row `xr` of 6 features goes through three affine layers,
      a_j = leaky (sum_f xr_f * w1_{j,f} + b1_j)          (12 units)
      c_k = leaky (sum_j a_j  * w2_{k,j} + b2_k)          (15 units)
      z_o =        sum_k c_k  * w3_{o,k} + b3_o           (4000 bins)
  and the output for an event is the sum over its 500 tracks of softplus z_o.
  `leaky` keeps a value that is at least zero and scales the others by the single-precision word nearest 0.01,
  which both programs carry as the same bit pattern; it is never evaluated.
  `softplus z` is max z 0 + log (1 + exp (-|z|)) on the extended reals.

  The only law between the two arrangements of the track sum is that a sum over 500 tracks is the sum of five
  consecutive sums over 100 tracks, which holds in any commutative additive monoid, so the extended reals'
  infinities play no part.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.TracksMlp

open Idealize.ShloMosaic

/-- The single-precision zero word, as both programs print it. -/
abbrev zeroW : EReal := Ideal.ofBits .f32 0x00000000#32
/-- The leaky slope: the single-precision word nearest 0.01, as both programs print it. -/
abbrev slopeW : EReal := Ideal.ofBits .f32 0x3C23D70A#32

/-- Leaky rectifier: `z` where `z ≥ 0`, else `slope * z`. -/
def leaky (z : EReal) : EReal := Scalar.select (Ideal.cmp .oge z zeroW) z (slopeW * z)

/-- Softplus in the stable form both programs use: `max z 0 + log (1 + exp (-|z|))`. -/
def softplus (z : EReal) : EReal := max z 0 + Ideal.log1p (Ideal.exp (-(max z (-z))))

/-- A value is never different from itself, so the guard for an undefined difference never fires. -/
theorem cmp_one_self (d : EReal) : Ideal.cmp .one d d = 0#1 := by
  simp [Ideal.cmp]

theorem cmp_une_self (d : EReal) : Ideal.cmp .une d d = 0#1 := by
  simp [Ideal.cmp]

/-- The kernel's spelling of softplus: the guard on `z - 0` is dead, and `0 - |z - 0|` is `-|z|`. -/
theorem softplus_kernel_form (z : EReal) :
    Scalar.select (Ideal.cmp .one (z - zeroW) (z - zeroW)) (z + zeroW)
      (max z zeroW + Ideal.log1p (Ideal.exp (zeroW - max (z - zeroW) (-(z - zeroW))))) = softplus z := by
  rw [cmp_one_self, ValueIdx.select_zero]
  unfold softplus zeroW
  rw [Ideal.ofBits_zero_f32, sub_zero, zero_sub]

/-- The reference's spelling of softplus: the guard is dead, and the exponent is the negated absolute value. -/
theorem softplus_reference_form (z : EReal) :
    Scalar.select (Ideal.cmp .une (z - zeroW) (z - zeroW)) (z + zeroW)
      (max z zeroW + Ideal.log1p (Ideal.exp (-(max (z - zeroW) (-(z - zeroW)))))) = softplus z := by
  rw [cmp_une_self, ValueIdx.select_zero]
  unfold softplus zeroW
  rw [Ideal.ofBits_zero_f32, sub_zero]

/-! ## One track -/

/-- First layer of one track: 12 units from 6 features. -/
def layer1 (xr : Fin 6 → EReal) (w1 : Fin 12 → Fin 6 → EReal) (b1 : Fin 12 → EReal) (j : Fin 12) : EReal :=
  leaky (∑ f : Fin 6, xr f * w1 j f + b1 j)

/-- Second layer of one track: 15 units from the 12. -/
def layer2 (xr : Fin 6 → EReal) (w1 : Fin 12 → Fin 6 → EReal) (b1 : Fin 12 → EReal)
    (w2 : Fin 15 → Fin 12 → EReal) (b2 : Fin 15 → EReal) (k : Fin 15) : EReal :=
  leaky (∑ j : Fin 12, layer1 xr w1 b1 j * w2 k j + b2 k)

/-- Third layer of one track, before the softplus: 4000 bins from the 15. -/
def layer3 (xr : Fin 6 → EReal) (w1 : Fin 12 → Fin 6 → EReal) (b1 : Fin 12 → EReal)
    (w2 : Fin 15 → Fin 12 → EReal) (b2 : Fin 15 → EReal)
    (w3 : Fin 4000 → Fin 15 → EReal) (b3 : Fin 4000 → EReal) (o : Fin 4000) : EReal :=
  ∑ k : Fin 15, layer2 xr w1 b1 w2 b2 k * w3 o k + b3 o

/-! ## The whole array -/

abbrev SX : Shape := ⟨3, ![64, 6, 500]⟩
abbrev SW1 : Shape := ⟨2, ![12, 6]⟩
abbrev SB1 : Shape := ⟨1, ![12]⟩
abbrev SW2 : Shape := ⟨2, ![15, 12]⟩
abbrev SB2 : Shape := ⟨1, ![15]⟩
abbrev SW3 : Shape := ⟨2, ![4000, 15]⟩
abbrev SB3 : Shape := ⟨1, ![4000]⟩
abbrev SO : Shape := ⟨2, ![64, 4000]⟩

/-- What track `t` of event `e` contributes to bin `o`. -/
def contrib (x : SX.Idx → EReal) (W1 : SW1.Idx → EReal) (B1 : SB1.Idx → EReal) (W2 : SW2.Idx → EReal) (B2 : SB2.Idx → EReal)
    (W3 : SW3.Idx → EReal) (B3 : SB3.Idx → EReal) (e : Fin 64) (t : Fin 500) (o : Fin 4000) : EReal :=
  softplus (layer3 (fun f => x (ValueIdx.ix3 e f t)) (fun j f => W1 (ValueIdx.ix2 j f)) (fun j => B1 (ValueIdx.ix1 j))
    (fun k j => W2 (ValueIdx.ix2 k j)) (fun k => B2 (ValueIdx.ix1 k)) (fun o k => W3 (ValueIdx.ix2 o k)) (fun o => B3 (ValueIdx.ix1 o)) o)

/-- The result array: at (event, bin), the sum over the event's 500 tracks. -/
def result (x : SX.Idx → EReal) (W1 : SW1.Idx → EReal) (B1 : SB1.Idx → EReal) (W2 : SW2.Idx → EReal) (B2 : SB2.Idx → EReal)
    (W3 : SW3.Idx → EReal) (B3 : SB3.Idx → EReal) : SO.Idx → EReal :=
  fun i => ∑ t : Fin 500, contrib x W1 B1 W2 B2 W3 B3 (i 0) t (i 1)

/-! ## Five chunks of a hundred -/

/-- Track `q` of chunk `c`. -/
def trackOf (c : Fin 5) (q : Fin 100) : Fin 500 := ⟨c.val * 100 + q.val, by have := c.isLt; have := q.isLt; omega⟩

/-- A sum over 500 tracks, accumulated chunk by chunk from zero as the kernel does. -/
theorem sum_tracks_by_chunks {M : Type*} [AddCommMonoid M] (g : Fin 500 → M) :
    ((((0 + ∑ q : Fin 100, g (trackOf 0 q)) + ∑ q : Fin 100, g (trackOf 1 q)) + ∑ q : Fin 100, g (trackOf 2 q))
      + ∑ q : Fin 100, g (trackOf 3 q)) + ∑ q : Fin 100, g (trackOf 4 q) = ∑ t : Fin 500, g t := by
  have e : ∑ t : Fin 500, g t = ∑ c : Fin 5, ∑ q : Fin 100, g (trackOf c q) := by
    rw [← Fintype.sum_prod_type' (f := fun c q => g (trackOf c q))]
    refine (Fintype.sum_equiv (finProdFinEquiv (m := 5) (n := 100)) _ _ fun p => ?_).symm
    refine congrArg g (Fin.ext ?_)
    show p.1.val * 100 + p.2.val = p.2.val + 100 * p.1.val
    omega
  rw [e, Fin.sum_univ_five, zero_add]

end Cert.TracksMlp

end
-- ==== Proof.KernelTail.lean ====
/-
  One chunk's contribution to the running sum.

  The kernel keeps, per chunk of 100 tracks, an [800, 4000] array `z` of third-layer values (row 100*e + q is
  track q of the block's event e). It applies softplus elementwise, regroups the 800 rows as [8, 100], sums over the
  100 tracks, and adds the result to the running [8, 4000] sum. Read at (event e, bin o) this is the running sum at
  (e, o) plus the sum over q of softplus z(100*e + q, o).
-/
import proofs.«166271_j59038620451119_1_alg».proof.Proof.Gen.KernelIdeal.Skeleton
import proofs.«166271_j59038620451119_1_alg».proof.Proof.Spec
import Idealize.ShloMosaic.Lib.ValueIdx
import Idealize.ShloMosaic.Lib.Pipeline.Value
import Idealize.ShloMosaic.PureOps.Ideal.Laws

noncomputable section

namespace Cert.KernelIdeal.Tail

open Idealize.ShloMosaic Cert.KernelIdeal Cert.KernelIdeal.Gen Cert.TracksMlp ValueIdx

/-- Row `100 * e + q` of the 800 flattened rows: track `q` of the block's event `e`. -/
def rowOf (e : Fin 8) (q : Fin 100) : Fin 800 := ⟨e.val * 100 + q.val, by have := e.isLt; have := q.isLt; omega⟩

/-- A sum over the middle axis of an [8, 100, 4000] array, read at (e, o): the sum over the 100 middle coordinates. -/
theorem lane_sum (src : FVec Ideal S8x100x4000 .f32) (h : S8x100x4000.Reduces [1] S8x4000) (hφ : FKind.Formats .f32)
    (hacc : (0x00000000#32 : BitVec 32) = 0x00000000#32) (e : Fin 8) (o : Fin 4000) :
    multiReduction .add [1] S8x4000 src 0x00000000#32 h hφ hacc (ix2 e o) = ∑ q : Fin 100, src (ix3 e q o) := by
  refine (Ideal.multiReduction_add_single src 0x00000000#32 h hφ hacc (ix2 e o)).trans ?_
  refine Finset.sum_congr rfl fun q _ => congrArg src (funext fun c => Fin.ext ?_)
  rw [h.lift_val]
  match c with
  | ⟨0, _⟩ => rfl
  | ⟨1, _⟩ => rfl
  | ⟨2, _⟩ => rfl

/-- The 800 rows regrouped as [8, 100]: entry (e, q, o) is row `100 * e + q`. -/
theorem regroup_apply (v : FVec Ideal S800x4000 .f32) (h : S800x4000.ShapeCasts S8x100x4000) (e : Fin 8) (q : Fin 100) (o : Fin 4000) :
    shapeCast S8x100x4000 v h (ix3 e q o) = v (ix2 (rowOf e q) o) := by
  refine shapeCast_apply v h (ix3 e q o) (ix2 (rowOf e q) o) ?_
  rw [Shape.rowMajor_val_two, Shape.rowMajor_val_three]
  show (e.val * 100 + q.val) * 4000 + o.val = (e.val * 100 + q.val) * 4000 + o.val
  rfl

/-- Adding a chunk: at (e, o), the running sum plus the chunk's 100 softplus values. -/
theorem tail_apply (acc : FVec Ideal S8x4000 .f32) (z : FVec Ideal S800x4000 .f32) (e : Fin 8) (o : Fin 4000) :
    k0_pay12 (F := Ideal) acc z (FloatOps.ofBits .f32 0x00000000#32) (ix2 e o)
      = acc (ix2 e o) + ∑ q : Fin 100, softplus (z (ix2 (rowOf e q) o)) := by
  unfold k0_pay12
  refine congrArg (acc (ix2 e o) + ·) ?_
  refine (lane_sum _ _ _ _ e o).trans ?_
  refine Finset.sum_congr rfl fun q _ => ?_
  refine (regroup_apply _ _ e q o).trans ?_
  exact softplus_kernel_form (z (ix2 (rowOf e q) o))

end Cert.KernelIdeal.Tail

end
-- ==== Proof.KernelChunk.lean ====
/-
  One chunk of the kernel body before the softplus, read at an index.

  The chunk takes a loaded block of 8 events by 6 features by 100 tracks, exchanges the two trailing axes, merges the
  two leading ones into 800 rows (row 100 * e + q is track q of event e), and passes the rows through three affine
  layers with the leaky rectifier after the first two. Each product accumulates into the zero array, so over the
  extended reals it is the plain sum over the contracted axis; row r of every product depends only on row r of its left
  operand. Hence at (r, o) the chunk's value is the third layer of the one track that row r holds.
-/
import proofs.«166271_j59038620451119_1_alg».proof.Proof.Gen.KernelIdeal.Skeleton
import proofs.«166271_j59038620451119_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Chunk

open Idealize.ShloMosaic Cert.KernelIdeal Cert.KernelIdeal.Gen Cert.TracksMlp

/-! ### The first product: operand indices of the contraction, axis by axis -/

theorem lhs_first_0 (i : S800x12.Idx) (q : dot_S800x6_S6x12_S800x12_1_0_0_1_n_n.contr.Idx) :
    (dot_S800x6_S6x12_S800x12_1_0_0_1_n_n.lhsIdx i q 0).val = (i 0).val := by
  unfold DotDims.lhsIdx
  rw [dif_neg (show ¬(0 : Fin S800x6.rank) ∈ dot_S800x6_S6x12_S800x12_1_0_0_1_n_n.lhsBatch by decide), dif_pos (show (0 : Fin S800x6.rank) ∈ dot_S800x6_S6x12_S800x12_1_0_0_1_n_n.lhsNonContracting by decide)]
  rfl
theorem lhs_first_1 (i : S800x12.Idx) (q : dot_S800x6_S6x12_S800x12_1_0_0_1_n_n.contr.Idx) :
    (dot_S800x6_S6x12_S800x12_1_0_0_1_n_n.lhsIdx i q 1).val = (q ⟨0, by decide⟩).val :=
  dot_S800x6_S6x12_S800x12_1_0_0_1_n_n.lhsIdx_val_of_single rfl i q
theorem rhs_first_0 (i : S800x12.Idx) (q : dot_S800x6_S6x12_S800x12_1_0_0_1_n_n.contr.Idx) :
    (dot_S800x6_S6x12_S800x12_1_0_0_1_n_n.rhsIdx i q 0).val = (q ⟨0, by decide⟩).val :=
  dot_S800x6_S6x12_S800x12_1_0_0_1_n_n.rhsIdx_val_of_single rfl i q
theorem rhs_first_1 (i : S800x12.Idx) (q : dot_S800x6_S6x12_S800x12_1_0_0_1_n_n.contr.Idx) :
    (dot_S800x6_S6x12_S800x12_1_0_0_1_n_n.rhsIdx i q 1).val = (i 1).val := by
  unfold DotDims.rhsIdx
  rw [dif_neg (show ¬(1 : Fin S6x12.rank) ∈ dot_S800x6_S6x12_S800x12_1_0_0_1_n_n.rhsBatch by decide), dif_pos (show (1 : Fin S6x12.rank) ∈ dot_S800x6_S6x12_S800x12_1_0_0_1_n_n.rhsNonContracting by decide)]
  rfl

/-- Into the zero accumulator the first product at (r, c) is the plain sum over the contracted axis. -/
theorem matmul_first_apply (A : FVec Ideal S800x6 .f32) (B : FVec Ideal S6x12 .f32) (r : Fin 800) (c : Fin 12) :
    matmul (F := Ideal) dot_S800x6_S6x12_S800x12_1_0_0_1_n_n none A B (constant (F := Ideal) S800x12 .f32 0x00000000#32) (ValueIdx.ix2 r c)
      = ∑ k : Fin 6, A (ValueIdx.ix2 r k) * B (ValueIdx.ix2 k c) := by
  simp only [matmul]
  rw [Ideal.matmul_constant_zero_apply, ← Equiv.sum_comp (ValueIdx.contrEquiv1 dot_S800x6_S6x12_S800x12_1_0_0_1_n_n 6 rfl rfl).symm]
  refine Finset.sum_congr rfl fun k _ => ?_
  have hk := ValueIdx.contrEquiv1_symm_val dot_S800x6_S6x12_S800x12_1_0_0_1_n_n 6 rfl rfl k
  have el : dot_S800x6_S6x12_S800x12_1_0_0_1_n_n.lhsIdx (ValueIdx.ix2 r c) ((ValueIdx.contrEquiv1 dot_S800x6_S6x12_S800x12_1_0_0_1_n_n 6 rfl rfl).symm k) = ValueIdx.ix2 r k := funext fun a => Fin.ext (by
    match a with
    | ⟨0, _⟩ => exact lhs_first_0 _ _
    | ⟨1, _⟩ => exact (lhs_first_1 _ _).trans hk)
  have er : dot_S800x6_S6x12_S800x12_1_0_0_1_n_n.rhsIdx (ValueIdx.ix2 r c) ((ValueIdx.contrEquiv1 dot_S800x6_S6x12_S800x12_1_0_0_1_n_n 6 rfl rfl).symm k) = ValueIdx.ix2 k c := funext fun a => Fin.ext (by
    match a with
    | ⟨0, _⟩ => exact (rhs_first_0 _ _).trans hk
    | ⟨1, _⟩ => exact rhs_first_1 _ _)
  rw [el, er]

/-! ### The second product: operand indices of the contraction, axis by axis -/

theorem lhs_second_0 (i : S800x15.Idx) (q : dot_S800x12_S12x15_S800x15_1_0_0_1_n_n.contr.Idx) :
    (dot_S800x12_S12x15_S800x15_1_0_0_1_n_n.lhsIdx i q 0).val = (i 0).val := by
  unfold DotDims.lhsIdx
  rw [dif_neg (show ¬(0 : Fin S800x12.rank) ∈ dot_S800x12_S12x15_S800x15_1_0_0_1_n_n.lhsBatch by decide), dif_pos (show (0 : Fin S800x12.rank) ∈ dot_S800x12_S12x15_S800x15_1_0_0_1_n_n.lhsNonContracting by decide)]
  rfl
theorem lhs_second_1 (i : S800x15.Idx) (q : dot_S800x12_S12x15_S800x15_1_0_0_1_n_n.contr.Idx) :
    (dot_S800x12_S12x15_S800x15_1_0_0_1_n_n.lhsIdx i q 1).val = (q ⟨0, by decide⟩).val :=
  dot_S800x12_S12x15_S800x15_1_0_0_1_n_n.lhsIdx_val_of_single rfl i q
theorem rhs_second_0 (i : S800x15.Idx) (q : dot_S800x12_S12x15_S800x15_1_0_0_1_n_n.contr.Idx) :
    (dot_S800x12_S12x15_S800x15_1_0_0_1_n_n.rhsIdx i q 0).val = (q ⟨0, by decide⟩).val :=
  dot_S800x12_S12x15_S800x15_1_0_0_1_n_n.rhsIdx_val_of_single rfl i q
theorem rhs_second_1 (i : S800x15.Idx) (q : dot_S800x12_S12x15_S800x15_1_0_0_1_n_n.contr.Idx) :
    (dot_S800x12_S12x15_S800x15_1_0_0_1_n_n.rhsIdx i q 1).val = (i 1).val := by
  unfold DotDims.rhsIdx
  rw [dif_neg (show ¬(1 : Fin S12x15.rank) ∈ dot_S800x12_S12x15_S800x15_1_0_0_1_n_n.rhsBatch by decide), dif_pos (show (1 : Fin S12x15.rank) ∈ dot_S800x12_S12x15_S800x15_1_0_0_1_n_n.rhsNonContracting by decide)]
  rfl

/-- Into the zero accumulator the second product at (r, c) is the plain sum over the contracted axis. -/
theorem matmul_second_apply (A : FVec Ideal S800x12 .f32) (B : FVec Ideal S12x15 .f32) (r : Fin 800) (c : Fin 15) :
    matmul (F := Ideal) dot_S800x12_S12x15_S800x15_1_0_0_1_n_n none A B (constant (F := Ideal) S800x15 .f32 0x00000000#32) (ValueIdx.ix2 r c)
      = ∑ k : Fin 12, A (ValueIdx.ix2 r k) * B (ValueIdx.ix2 k c) := by
  simp only [matmul]
  rw [Ideal.matmul_constant_zero_apply, ← Equiv.sum_comp (ValueIdx.contrEquiv1 dot_S800x12_S12x15_S800x15_1_0_0_1_n_n 12 rfl rfl).symm]
  refine Finset.sum_congr rfl fun k _ => ?_
  have hk := ValueIdx.contrEquiv1_symm_val dot_S800x12_S12x15_S800x15_1_0_0_1_n_n 12 rfl rfl k
  have el : dot_S800x12_S12x15_S800x15_1_0_0_1_n_n.lhsIdx (ValueIdx.ix2 r c) ((ValueIdx.contrEquiv1 dot_S800x12_S12x15_S800x15_1_0_0_1_n_n 12 rfl rfl).symm k) = ValueIdx.ix2 r k := funext fun a => Fin.ext (by
    match a with
    | ⟨0, _⟩ => exact lhs_second_0 _ _
    | ⟨1, _⟩ => exact (lhs_second_1 _ _).trans hk)
  have er : dot_S800x12_S12x15_S800x15_1_0_0_1_n_n.rhsIdx (ValueIdx.ix2 r c) ((ValueIdx.contrEquiv1 dot_S800x12_S12x15_S800x15_1_0_0_1_n_n 12 rfl rfl).symm k) = ValueIdx.ix2 k c := funext fun a => Fin.ext (by
    match a with
    | ⟨0, _⟩ => exact (rhs_second_0 _ _).trans hk
    | ⟨1, _⟩ => exact rhs_second_1 _ _)
  rw [el, er]

/-! ### The third product: operand indices of the contraction, axis by axis -/

theorem lhs_third_0 (i : S800x4000.Idx) (q : dot_S800x15_S15x4000_S800x4000_1_0_0_1_n_n.contr.Idx) :
    (dot_S800x15_S15x4000_S800x4000_1_0_0_1_n_n.lhsIdx i q 0).val = (i 0).val := by
  unfold DotDims.lhsIdx
  rw [dif_neg (show ¬(0 : Fin S800x15.rank) ∈ dot_S800x15_S15x4000_S800x4000_1_0_0_1_n_n.lhsBatch by decide), dif_pos (show (0 : Fin S800x15.rank) ∈ dot_S800x15_S15x4000_S800x4000_1_0_0_1_n_n.lhsNonContracting by decide)]
  rfl
theorem lhs_third_1 (i : S800x4000.Idx) (q : dot_S800x15_S15x4000_S800x4000_1_0_0_1_n_n.contr.Idx) :
    (dot_S800x15_S15x4000_S800x4000_1_0_0_1_n_n.lhsIdx i q 1).val = (q ⟨0, by decide⟩).val :=
  dot_S800x15_S15x4000_S800x4000_1_0_0_1_n_n.lhsIdx_val_of_single rfl i q
theorem rhs_third_0 (i : S800x4000.Idx) (q : dot_S800x15_S15x4000_S800x4000_1_0_0_1_n_n.contr.Idx) :
    (dot_S800x15_S15x4000_S800x4000_1_0_0_1_n_n.rhsIdx i q 0).val = (q ⟨0, by decide⟩).val :=
  dot_S800x15_S15x4000_S800x4000_1_0_0_1_n_n.rhsIdx_val_of_single rfl i q
theorem rhs_third_1 (i : S800x4000.Idx) (q : dot_S800x15_S15x4000_S800x4000_1_0_0_1_n_n.contr.Idx) :
    (dot_S800x15_S15x4000_S800x4000_1_0_0_1_n_n.rhsIdx i q 1).val = (i 1).val := by
  unfold DotDims.rhsIdx
  rw [dif_neg (show ¬(1 : Fin S15x4000.rank) ∈ dot_S800x15_S15x4000_S800x4000_1_0_0_1_n_n.rhsBatch by decide), dif_pos (show (1 : Fin S15x4000.rank) ∈ dot_S800x15_S15x4000_S800x4000_1_0_0_1_n_n.rhsNonContracting by decide)]
  rfl

/-- Into the zero accumulator the third product at (r, c) is the plain sum over the contracted axis. -/
theorem matmul_third_apply (A : FVec Ideal S800x15 .f32) (B : FVec Ideal S15x4000 .f32) (r : Fin 800) (c : Fin 4000) :
    matmul (F := Ideal) dot_S800x15_S15x4000_S800x4000_1_0_0_1_n_n none A B (constant (F := Ideal) S800x4000 .f32 0x00000000#32) (ValueIdx.ix2 r c)
      = ∑ k : Fin 15, A (ValueIdx.ix2 r k) * B (ValueIdx.ix2 k c) := by
  simp only [matmul]
  rw [Ideal.matmul_constant_zero_apply, ← Equiv.sum_comp (ValueIdx.contrEquiv1 dot_S800x15_S15x4000_S800x4000_1_0_0_1_n_n 15 rfl rfl).symm]
  refine Finset.sum_congr rfl fun k _ => ?_
  have hk := ValueIdx.contrEquiv1_symm_val dot_S800x15_S15x4000_S800x4000_1_0_0_1_n_n 15 rfl rfl k
  have el : dot_S800x15_S15x4000_S800x4000_1_0_0_1_n_n.lhsIdx (ValueIdx.ix2 r c) ((ValueIdx.contrEquiv1 dot_S800x15_S15x4000_S800x4000_1_0_0_1_n_n 15 rfl rfl).symm k) = ValueIdx.ix2 r k := funext fun a => Fin.ext (by
    match a with
    | ⟨0, _⟩ => exact lhs_third_0 _ _
    | ⟨1, _⟩ => exact (lhs_third_1 _ _).trans hk)
  have er : dot_S800x15_S15x4000_S800x4000_1_0_0_1_n_n.rhsIdx (ValueIdx.ix2 r c) ((ValueIdx.contrEquiv1 dot_S800x15_S15x4000_S800x4000_1_0_0_1_n_n 15 rfl rfl).symm k) = ValueIdx.ix2 k c := funext fun a => Fin.ext (by
    match a with
    | ⟨0, _⟩ => exact (rhs_third_0 _ _).trans hk
    | ⟨1, _⟩ => exact rhs_third_1 _ _)
  rw [el, er]

/-! ## The layout steps and the rectifier at an index -/

/-- The loaded block with its two trailing axes exchanged and its two leading axes merged: 800 rows of 6 features. -/
def flat (v : Vec Ideal S8x6x100 .f32) : FVec Ideal S800x6 .f32 :=
  shapeCast S800x6 (transpose S8x100x6 [0, 2, 1] v transposes_S8x6x100_p0_2_1_S8x100x6 : FVec Ideal S8x100x6 .f32)
    shapeCasts_S8x100x6_S800x6

/-- It reads at row `r = 100 * e + q` and feature `f` the block at (event `e`, feature `f`, track `q`). -/
theorem flat_apply (v : Vec Ideal S8x6x100 .f32) (e : Fin 8) (q : Fin 100) (f : Fin 6) (r : Fin 800)
    (hr : r.val = e.val * 100 + q.val) :
    flat v (ValueIdx.ix2 r f) = v (ValueIdx.ix3 e f q) := by
  unfold flat
  refine (shapeCast_apply _ shapeCasts_S8x100x6_S800x6 (ValueIdx.ix2 r f) (ValueIdx.ix3 e q f) ?_).trans ?_
  · rw [Shape.rowMajor_val_three, Shape.rowMajor_val_two]
    show (e.val * 100 + q.val) * 6 + f.val = r.val * 6 + f.val
    rw [hr]
  · exact ValueIdx.transpose_ix3_021_apply v transposes_S8x6x100_p0_2_1_S8x100x6 e q f

/-- The rectifier as the kernel spells it on a whole array — keep where at least zero, else scale by the slope
    word. -/
def leakyVec {s : Shape} (z : FVec Ideal s .f32) : FVec Ideal s .f32 :=
  select (cmpf .oge z (broadcast s (Scalar.ofBits (F := Ideal) .f32 0x00000000#32))) z
    (mulf (broadcast s (Scalar.ofBits (F := Ideal) .f32 0x3C23D70A#32)) z)

/-- At an index it is `leaky` of the element. -/
theorem leakyVec_apply {s : Shape} (z : FVec Ideal s .f32) (i : s.Idx) : leakyVec z i = leaky (z i) := rfl

/-! ## The two hidden layers, named -/

/-- The first hidden layer as the kernel computes it: 800 rows of 12 units. -/
def hid1 (v1 : FVec Ideal S6x12 .f32) (v3 : FVec Ideal S1x12 .f32) (v : Vec Ideal S8x6x100 .f32) : FVec Ideal S800x12 .f32 :=
  leakyVec (addf (matmul dot_S800x6_S6x12_S800x12_1_0_0_1_n_n none (flat v) v1 (constant S800x12 .f32 0x00000000#32)) (broadcastTo S800x12 v3 broadcasts_S1x12_S800x12))

/-- The second hidden layer as the kernel computes it: 800 rows of 15 units. -/
def hid2 (v1 : FVec Ideal S6x12 .f32) (v3 : FVec Ideal S1x12 .f32) (v5 : FVec Ideal S12x15 .f32) (v7 : FVec Ideal S1x15 .f32)
    (v : Vec Ideal S8x6x100 .f32) : FVec Ideal S800x15 .f32 :=
  leakyVec (addf (matmul dot_S800x12_S12x15_S800x15_1_0_0_1_n_n none (hid1 v1 v3 v) v5 (constant S800x15 .f32 0x00000000#32)) (broadcastTo S800x15 v7 broadcasts_S1x15_S800x15))

/-- The chunk's value is the third affine layer over the second hidden layer: the printed sequence, its bindings
    substituted. -/
theorem pay11_eq (v1 : FVec Ideal S6x12 .f32) (v3 : FVec Ideal S1x12 .f32) (v5 : FVec Ideal S12x15 .f32) (v7 : FVec Ideal S1x15 .f32)
    (v9 : FVec Ideal S15x4000 .f32) (v11 : FVec Ideal S1x4000 .f32) (v : Vec Ideal S8x6x100 .f32) :
    k0_pay11 (F := Ideal) v1 v3 v5 v7 v9 v11 v
      = addf (matmul dot_S800x15_S15x4000_S800x4000_1_0_0_1_n_n none (hid2 v1 v3 v5 v7 v) v9 (constant S800x4000 .f32 0x00000000#32))
          (broadcastTo S800x4000 v11 broadcasts_S1x4000_S800x4000) := rfl

/-- Row `r = 100 * e + q` of the first hidden layer is the first layer of track `q` of event `e`. -/
theorem hid1_apply (v1 : FVec Ideal S6x12 .f32) (v3 : FVec Ideal S1x12 .f32) (v : Vec Ideal S8x6x100 .f32)
    (e : Fin 8) (q : Fin 100) (r : Fin 800) (hr : r.val = e.val * 100 + q.val) (j : Fin 12) :
    hid1 v1 v3 v (ValueIdx.ix2 r j)
      = layer1 (fun f => v (ValueIdx.ix3 e f q)) (fun j f => v1 (ValueIdx.ix2 f j)) (fun j => v3 (ValueIdx.ix2 (0 : Fin 1) j)) j := by
  unfold hid1 layer1
  refine (leakyVec_apply _ _).trans (congrArg leaky ?_)
  refine (ValueIdx.addf_apply _ _ _).trans ?_
  refine congrArg₂ (· + ·) ?_ (ValueIdx.broadcastTo_1b_ab_apply v3 broadcasts_S1x12_S800x12 r j)
  refine (matmul_first_apply _ v1 r j).trans (Finset.sum_congr rfl fun f _ => ?_)
  exact congrArg (· * v1 (ValueIdx.ix2 f j)) (flat_apply v e q f r hr)

/-- Row `r` of the second hidden layer is the second layer of the same track. -/
theorem hid2_apply (v1 : FVec Ideal S6x12 .f32) (v3 : FVec Ideal S1x12 .f32) (v5 : FVec Ideal S12x15 .f32) (v7 : FVec Ideal S1x15 .f32)
    (v : Vec Ideal S8x6x100 .f32) (e : Fin 8) (q : Fin 100) (r : Fin 800) (hr : r.val = e.val * 100 + q.val) (k : Fin 15) :
    hid2 v1 v3 v5 v7 v (ValueIdx.ix2 r k)
      = layer2 (fun f => v (ValueIdx.ix3 e f q)) (fun j f => v1 (ValueIdx.ix2 f j)) (fun j => v3 (ValueIdx.ix2 (0 : Fin 1) j))
          (fun k j => v5 (ValueIdx.ix2 j k)) (fun k => v7 (ValueIdx.ix2 (0 : Fin 1) k)) k := by
  unfold hid2 layer2
  refine (leakyVec_apply _ _).trans (congrArg leaky ?_)
  refine (ValueIdx.addf_apply _ _ _).trans ?_
  refine congrArg₂ (· + ·) ?_ (ValueIdx.broadcastTo_1b_ab_apply v7 broadcasts_S1x15_S800x15 r k)
  refine (matmul_second_apply _ v5 r k).trans (Finset.sum_congr rfl fun j _ => ?_)
  exact congrArg (· * v5 (ValueIdx.ix2 j k)) (hid1_apply v1 v3 v e q r hr j)

/-! ## The chunk at an index -/

/-- At row `r = 100 * e + q` and bin `o` the chunk's value before the softplus is the third layer of track `q` of
    event `e`: each product's row depends only on the same row of its left operand. -/
theorem preact_apply (v1 : FVec Ideal S6x12 .f32) (v3 : FVec Ideal S1x12 .f32) (v5 : FVec Ideal S12x15 .f32) (v7 : FVec Ideal S1x15 .f32)
    (v9 : FVec Ideal S15x4000 .f32) (v11 : FVec Ideal S1x4000 .f32) (v : Vec Ideal S8x6x100 .f32)
    (e : Fin 8) (q : Fin 100) (o : Fin 4000) (r : Fin 800) (hr : r.val = e.val * 100 + q.val) :
    k0_pay11 (F := Ideal) v1 v3 v5 v7 v9 v11 v (ValueIdx.ix2 r o)
      = layer3 (fun f => v (ValueIdx.ix3 e f q)) (fun j f => v1 (ValueIdx.ix2 f j)) (fun j => v3 (ValueIdx.ix2 (0 : Fin 1) j))
          (fun k j => v5 (ValueIdx.ix2 j k)) (fun k => v7 (ValueIdx.ix2 (0 : Fin 1) k))
          (fun o' k => v9 (ValueIdx.ix2 k o')) (fun o' => v11 (ValueIdx.ix2 (0 : Fin 1) o')) o := by
  rw [pay11_eq]
  unfold layer3
  refine (ValueIdx.addf_apply _ _ _).trans ?_
  refine congrArg₂ (· + ·) ?_ (ValueIdx.broadcastTo_1b_ab_apply v11 broadcasts_S1x4000_S800x4000 r o)
  refine (matmul_third_apply _ v9 r o).trans (Finset.sum_congr rfl fun k _ => ?_)
  exact congrArg (· * v9 (ValueIdx.ix2 k o)) (hid2_apply v1 v3 v5 v7 v e q r hr k)

end Cert.KernelIdeal.Chunk

end
-- ==== Proof.KernelBody.lean ====
/-
  What the kernel body leaves in one output block.

  The body treats a block of 8 events by 6 features by 500 tracks. It is printed unrolled: five chunks of 100
  consecutive tracks, each pushed through the three layers (one row per event and track), softplus applied, summed over
  the chunk's tracks and added to a running [8, 4000] sum that starts at zero. The printed text cuts this sequence of
  operations at fixed positions, so the five chunks appear as differently grouped terms; unfolding the groupings
  shows each is the same "add this chunk's track sum to the running sum" over the same third-layer term. Read at
  (event e, bin o) the block is therefore ((((0 + S0) + S1) + S2) + S3) + S4 with Sc the sum over chunk c's tracks
  of one track's contribution, and that ordered sum is the sum over all 500 tracks.
-/
import proofs.«166271_j59038620451119_1_alg».proof.Proof.Gen.KernelIdeal.Frame
import proofs.«166271_j59038620451119_1_alg».proof.Proof.KernelTail
import proofs.«166271_j59038620451119_1_alg».proof.Proof.KernelChunk
import proofs.«166271_j59038620451119_1_alg».proof.Proof.Spec
import Idealize.ShloMosaic.Lib.Pipeline.Value
import Idealize.ShloMosaic.Lib.Tactic

noncomputable section

namespace Cert.KernelIdeal.Body

open Idealize.ShloMosaic Idealize.ShloMosaic.TcCoe Cert.KernelIdeal Cert.KernelIdeal.Gen Cert.TracksMlp ValueIdx
open Cert.KernelIdeal.Tail Cert.KernelIdeal.Chunk

variable {F : FTy → Type} [FloatOps F]

theorem hz : (![0, 0] : Fin 2 → Nat) = fun _ => 0 := funext fun a => by fin_cases a <;> rfl

/-- A window of 100 consecutive tracks starting at `off` lies inside the block's 500. -/
theorem chunk_inb (off : Nat) (h : off + 100 ≤ 500) :
    ∀ a : Fin 3, (![0, 0, off] : Fin 3 → Nat) a + S8x6x100.size a ≤ S8x6x500.size a := fun a =>
  match a with
  | ⟨0, _⟩ => by show (0 : Nat) + 8 ≤ 8; omega
  | ⟨1, _⟩ => by show (0 : Nat) + 6 ≤ 6; omega
  | ⟨2, _⟩ => h

/-- Tracks `off … off + 99` of the block, all events and features. -/
abbrev tracksFrom (x0 : Vec F S8x6x500 .f32) (off : Nat) (h : off + 100 ≤ 500) : Vec F S8x6x100 .f32 :=
  View.ld x0 (Rect.unit ![0, 0, off] S8x6x100.size (chunk_inb off h))

/-- Third-layer values of a chunk of 100 tracks, one row per (event, track). -/
abbrev preact (x1 : Vec F S6x12 .f32) (x2 : Vec F S1x12 .f32) (x3 : Vec F S12x15 .f32) (x4 : Vec F S1x15 .f32)
    (x5 : Vec F S15x4000 .f32) (x6 : Vec F S1x4000 .f32) (v : Vec F S8x6x100 .f32) : FVec F S800x4000 .f32 :=
  k0_pay11 (k0_pay2 x1) (k0_pay3 x2) (k0_pay4 x3) (k0_pay5 x4) (k0_pay6 x5) (k0_pay7 x6) v

/-- Adding a chunk's softplus values, summed over its tracks, to a running [8, 4000] sum. -/
abbrev addChunk (acc : FVec F S8x4000 .f32) (z : FVec F S800x4000 .f32) : FVec F S8x4000 .f32 :=
  k0_pay12 acc z (FloatOps.ofBits .f32 0x00000000#32)

section forms
variable (a : FVec F S8x4000 .f32) (v1 : FVec F S6x12 .f32) (v3 : FVec F S1x12 .f32) (v5 : FVec F S12x15 .f32) (v7 : FVec F S1x15 .f32)
  (v9 : FVec F S15x4000 .f32) (v11 : FVec F S1x4000 .f32) (v : Vec F S8x6x100 .f32)

/-- The first chunk: the second hidden layer, then the third layer and the accumulation. -/
theorem first_chunk (v0 : Vec F S6x12 .f32) (v2 : Vec F S1x12 .f32) (v4 : Vec F S12x15 .f32) (v6 : Vec F S1x15 .f32) :
    k0_pay10 v9 v11 a (k0_pay9 v0 v2 v4 v6 v) (constant S800x4000 .f32 0x00000000#32)
      = addChunk a (k0_pay11 (k0_pay2 v0) (k0_pay3 v2) (k0_pay4 v4) (k0_pay5 v6) v9 v11 v) := rfl

/-- The later chunks cut the same operations at other places; each is the same accumulation of the same third layer. -/
theorem third_chunk :
    k0_pay16 a (k0_pay13 v1 v3 v5 v7 v9 v11 v) (FloatOps.ofBits .f32 0x00000000#32) (k0_pay14 v1 v3 v5 v7 v9 v11 v) (k0_pay15 v1 v3 v5 v7 v9 v11 v)
      = addChunk a (k0_pay11 v1 v3 v5 v7 v9 v11 v) := rfl

theorem fourth_chunk :
    k0_pay23 a (k0_pay18 v1 v3 v5 v7 v9 v11 v) (k0_pay20 v1 v3 v5 v7 v9 v11 v) (k0_pay21 v1 v3 v5 v7 v9 v11 v) (k0_pay22 v1 v3 v5 v7 v9 v11 v)
      = addChunk a (k0_pay11 v1 v3 v5 v7 v9 v11 v) := rfl

theorem fifth_chunk :
    k0_pay1 a (k0_pay25 v1 v3 v5 v7 v9 v11 v) (k0_pay27 v1 v3 v5 v7 v9 v11 v) (k0_pay28 v1 v3 v5 v7 v9 v11 v) (k0_pay29 v1 v3 v5 v7 v9 v11 v)
      = addChunk a (k0_pay11 v1 v3 v5 v7 v9 v11 v) := rfl

end forms

/-- What the body leaves in the output block: from the zero block, the five chunks added in order. -/
theorem body_form (c : Dev nD) (i : grid0.Coords) (arg1 : Memref sig .tc .vmem S8x6x500 .f32) (harg1 : arg1.IsWhole) (arg2 : Memref sig .tc .vmem S6x12 .f32) (harg2 : arg2.IsWhole) (arg3 : Memref sig .tc .vmem S1x12 .f32) (harg3 : arg3.IsWhole) (arg4 : Memref sig .tc .vmem S12x15 .f32) (harg4 : arg4.IsWhole) (arg5 : Memref sig .tc .vmem S1x15 .f32) (harg5 : arg5.IsWhole) (arg6 : Memref sig .tc .vmem S15x4000 .f32) (harg6 : arg6.IsWhole) (arg7 : Memref sig .tc .vmem S1x4000 .f32) (harg7 : arg7.IsWhole) (arg8 : Memref sig .tc .vmem S8x4000 .f32) (harg8 : arg8.IsWhole)
    (x0 : Vec F S8x6x500 .f32) (x1 : Vec F S6x12 .f32) (x2 : Vec F S1x12 .f32) (x3 : Vec F S12x15 .f32) (x4 : Vec F S1x15 .f32) (x5 : Vec F S15x4000 .f32) (x6 : Vec F S1x4000 .f32) :
    out0_A_7 c i arg1 harg1 arg2 harg2 arg3 harg3 arg4 harg4 arg5 harg5 arg6 harg6 arg7 harg7 arg8 harg8 x0 x1 x2 x3 x4 x5 x6
      = addChunk (addChunk (addChunk (addChunk (addChunk k0_pay8
          (preact x1 x2 x3 x4 x5 x6 (tracksFrom x0 0 (by omega))))
          (preact x1 x2 x3 x4 x5 x6 (tracksFrom x0 100 (by omega))))
          (preact x1 x2 x3 x4 x5 x6 (tracksFrom x0 200 (by omega))))
          (preact x1 x2 x3 x4 x5 x6 (tracksFrom x0 300 (by omega))))
          (preact x1 x2 x3 x4 x5 x6 (tracksFrom x0 400 (by omega))) := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, View.ld_unit_zero (S := S6x12) hz, View.ld_unit_zero (S := S1x12) hz,
    View.ld_unit_zero (S := S12x15) hz, View.ld_unit_zero (S := S1x15) hz, View.ld_unit_zero (S := S15x4000) hz,
    View.ld_unit_zero (S := S1x4000) hz]
  rw [fifth_chunk, fourth_chunk, third_chunk, first_chunk]

/-- A chunk's entry (e, f, q) is the block's entry at track `off + q`. -/
theorem tracksFrom_apply (x0 : Vec F S8x6x500 .f32) (off : Nat) (h : off + 100 ≤ 500) (e : Fin 8) (f : Fin 6) (q : Fin 100) :
    tracksFrom x0 off h (ix3 e f q) = x0 (ix3 e f ⟨off + q.val, by have := q.isLt; omega⟩) :=
  congrArg x0 (funext fun a => Fin.ext (by
    match a with
    | ⟨0, _⟩ => show 0 + 1 * e.val = e.val; omega
    | ⟨1, _⟩ => show 0 + 1 * f.val = f.val; omega
    | ⟨2, _⟩ => show off + 1 * q.val = off + q.val; omega))

/-- What one track of the block contributes to bin `o`, from the block of tracks and the weights as the kernel holds
    them: each weight matrix transposed (input index first), each bias a one-row matrix. -/
abbrev trackVal (x0 : Vec Ideal S8x6x500 .f32) (x1 : Vec Ideal S6x12 .f32) (x2 : Vec Ideal S1x12 .f32) (x3 : Vec Ideal S12x15 .f32) (x4 : Vec Ideal S1x15 .f32) (x5 : Vec Ideal S15x4000 .f32) (x6 : Vec Ideal S1x4000 .f32) (e : Fin 8) (t : Fin 500) (o : Fin 4000) : EReal :=
  softplus (layer3 (fun f => x0 (ix3 e f t)) (fun j f => x1 (ix2 f j)) (fun j => x2 (ix2 (0 : Fin 1) j))
    (fun k j => x3 (ix2 j k)) (fun k => x4 (ix2 (0 : Fin 1) k)) (fun o' k => x5 (ix2 k o')) (fun o' => x6 (ix2 (0 : Fin 1) o')) o)

/-- The softplus values of chunk `cI`, summed over its rows for event `e`, are the contributions of that chunk's tracks. -/
theorem chunk_sum (x0 : Vec Ideal S8x6x500 .f32) (x1 : Vec Ideal S6x12 .f32) (x2 : Vec Ideal S1x12 .f32) (x3 : Vec Ideal S12x15 .f32) (x4 : Vec Ideal S1x15 .f32) (x5 : Vec Ideal S15x4000 .f32) (x6 : Vec Ideal S1x4000 .f32) (cI : Fin 5) (off : Nat) (hoff : off = cI.val * 100) (h : off + 100 ≤ 500)
    (e : Fin 8) (o : Fin 4000) :
    ∑ q : Fin 100, softplus (preact x1 x2 x3 x4 x5 x6 (tracksFrom x0 off h) (ix2 (rowOf e q) o))
      = ∑ q : Fin 100, trackVal x0 x1 x2 x3 x4 x5 x6 e (trackOf cI q) o := by
  subst hoff
  refine Finset.sum_congr rfl fun q _ => congrArg softplus ?_
  refine (preact_apply _ _ _ _ _ _ _ e q o (rowOf e q) rfl).trans ?_
  simp only [k0_pay2, k0_pay3, k0_pay4, k0_pay5, k0_pay6, k0_pay7, shapeCast_self]
  refine congrArg (fun xr : Fin 6 → EReal => layer3 xr (fun j f => x1 (ix2 f j)) (fun j => x2 (ix2 (0 : Fin 1) j))
    (fun k j => x3 (ix2 j k)) (fun k => x4 (ix2 (0 : Fin 1) k)) (fun o' k => x5 (ix2 k o')) (fun o' => x6 (ix2 (0 : Fin 1) o')) o)
    (funext fun f => ?_)
  exact tracksFrom_apply x0 (cI.val * 100) h e f q

/-- THE BLOCK'S VALUE: at (event e of the block, bin o), the sum over the block's 500 tracks of each track's contribution. -/
theorem block_value (c : Dev nD) (i : grid0.Coords) (arg1 : Memref sig .tc .vmem S8x6x500 .f32) (harg1 : arg1.IsWhole) (arg2 : Memref sig .tc .vmem S6x12 .f32) (harg2 : arg2.IsWhole) (arg3 : Memref sig .tc .vmem S1x12 .f32) (harg3 : arg3.IsWhole) (arg4 : Memref sig .tc .vmem S12x15 .f32) (harg4 : arg4.IsWhole) (arg5 : Memref sig .tc .vmem S1x15 .f32) (harg5 : arg5.IsWhole) (arg6 : Memref sig .tc .vmem S15x4000 .f32) (harg6 : arg6.IsWhole) (arg7 : Memref sig .tc .vmem S1x4000 .f32) (harg7 : arg7.IsWhole) (arg8 : Memref sig .tc .vmem S8x4000 .f32) (harg8 : arg8.IsWhole)
    (x0 : Vec Ideal S8x6x500 .f32) (x1 : Vec Ideal S6x12 .f32) (x2 : Vec Ideal S1x12 .f32) (x3 : Vec Ideal S12x15 .f32) (x4 : Vec Ideal S1x15 .f32) (x5 : Vec Ideal S15x4000 .f32) (x6 : Vec Ideal S1x4000 .f32) (e : Fin 8) (o : Fin 4000) :
    out0_A_7 (F := Ideal) c i arg1 harg1 arg2 harg2 arg3 harg3 arg4 harg4 arg5 harg5 arg6 harg6 arg7 harg7 arg8 harg8 x0 x1 x2 x3 x4 x5 x6 (ix2 e o)
      = ∑ t : Fin 500, trackVal x0 x1 x2 x3 x4 x5 x6 e t o := by
  rw [body_form]
  unfold addChunk
  rw [tail_apply, tail_apply, tail_apply, tail_apply, tail_apply]
  rw [chunk_sum x0 x1 x2 x3 x4 x5 x6 0 0 rfl, chunk_sum x0 x1 x2 x3 x4 x5 x6 1 100 rfl, chunk_sum x0 x1 x2 x3 x4 x5 x6 2 200 rfl,
    chunk_sum x0 x1 x2 x3 x4 x5 x6 3 300 rfl, chunk_sum x0 x1 x2 x3 x4 x5 x6 4 400 rfl]
  have h0 : k0_pay8 (F := Ideal) (ix2 e o) = 0 := Ideal.ofBits_zero_f32
  rw [h0]
  exact sum_tracks_by_chunks (fun t => trackVal x0 x1 x2 x3 x4 x5 x6 e t o)

end Cert.KernelIdeal.Body

end
-- ==== Proof.KernelArray.lean ====
/-
  From blocks to the whole result array.

  The grid has 8 points; point t stages events 8t … 8t+7 of the input (all features, all tracks) and the whole of
  every weight and bias, and writes back rows 8t … 8t+7 of the [64, 4000] result. Before the region the three weight
  matrices are transposed and the three biases recast as one-row matrices, so the block entries the body reads as
  (input index, output index) and (0, index) are the arguments' entries at (output index, input index) and (index).
  With the value of a block from the body, what point t writes back is rows 8t … 8t+7 of the specification's
  result array; the eight row blocks cover the array, so it ends holding that array.
-/
import proofs.«166271_j59038620451119_1_alg».proof.Proof.Gen.KernelIdeal.Value
import proofs.«166271_j59038620451119_1_alg».proof.Proof.KernelBody
import proofs.«166271_j59038620451119_1_alg».proof.Proof.Spec
import Idealize.ShloMosaic.Lib.Pipeline.Value
import Idealize.ShloMosaic.Lib.ValueLayout
import Idealize.ShloMosaic.Lib.StableHlo.Run

noncomputable section

namespace Cert.KernelIdeal.WholeArray

open Idealize.ShloMosaic Idealize.ShloMosaic.TcCoe Idealize.SL.Sem Cert.KernelIdeal Cert.KernelIdeal.Gen Cert.TracksMlp ValueIdx
open Cert.KernelIdeal.Body
open Idealize.ShloMosaic.Pipeline (Dat)

variable (m : (ℓ : Loc nD τ sig) → Buf (Elt Ideal) ℓ) (ρ : Dev nD → PrngReg)

/-! ## The argument arrays and the specification's result of them -/

abbrev argX (c : Dev nD) : SX.Idx → EReal := m ((c : Thread nD τ).loc main_arg0)
abbrev argW1 (c : Dev nD) : SW1.Idx → EReal := m ((c : Thread nD τ).loc main_arg1)
abbrev argB1 (c : Dev nD) : SB1.Idx → EReal := m ((c : Thread nD τ).loc main_arg2)
abbrev argW2 (c : Dev nD) : SW2.Idx → EReal := m ((c : Thread nD τ).loc main_arg3)
abbrev argB2 (c : Dev nD) : SB2.Idx → EReal := m ((c : Thread nD τ).loc main_arg4)
abbrev argW3 (c : Dev nD) : SW3.Idx → EReal := m ((c : Thread nD τ).loc main_arg5)
abbrev argB3 (c : Dev nD) : SB3.Idx → EReal := m ((c : Thread nD τ).loc main_arg6)

/-- The specification's result array of the argument arrays. -/
abbrev resultOf (c : Dev nD) : S64x4000.Idx → EReal :=
  result (argX m c) (argW1 m c) (argB1 m c) (argW2 m c) (argB2 m c) (argW3 m c) (argB3 m c)

/-! ## The arrays the region finds: the arguments transposed or recast -/

theorem entry_x (c : Dev nD) : (V m c main_arg0 : S64x6x500.Idx → EReal) = argX m c := V_main_arg0 m c

theorem entry_w1 (c : Dev nD) :
    (V m c main_v0 : S6x12.Idx → EReal) = transpose S6x12 [1, 0] (argW1 m c) transposes_S12x6_S6x12_1_0 := by
  dsimp only [Gen.V, Gen.hostOps0]; after_results

theorem entry_w2 (c : Dev nD) :
    (V m c main_v1 : S12x15.Idx → EReal) = transpose S12x15 [1, 0] (argW2 m c) transposes_S15x12_S12x15_1_0 := by
  dsimp only [Gen.V, Gen.hostOps0]; after_results

theorem entry_w3 (c : Dev nD) :
    (V m c main_v2 : S15x4000.Idx → EReal) = transpose S15x4000 [1, 0] (argW3 m c) transposes_S4000x15_S15x4000_1_0 := by
  dsimp only [Gen.V, Gen.hostOps0]; after_results

theorem entry_b1 (c : Dev nD) :
    (V m c main_v3 : S1x12.Idx → EReal) = shapeCast S1x12 (argB1 m c) shapeCasts_S12_S1x12 := by
  dsimp only [Gen.V, Gen.hostOps0]; after_results; rfl

theorem entry_b2 (c : Dev nD) :
    (V m c main_v4 : S1x15.Idx → EReal) = shapeCast S1x15 (argB2 m c) shapeCasts_S15_S1x15 := by
  dsimp only [Gen.V, Gen.hostOps0]; after_results; rfl

theorem entry_b3 (c : Dev nD) :
    (V m c main_v5 : S1x4000.Idx → EReal) = shapeCast S1x4000 (argB3 m c) shapeCasts_S4000_S1x4000 := by
  dsimp only [Gen.V, Gen.hostOps0]; after_results; rfl

/-! ## The blocks at a point, at coordinates -/

abbrev blkX (c : Dev nD) (t : Fin cfg0.N) : Vec Ideal S8x6x500 .f32 := iblk m c 0 t
abbrev blkW1 (c : Dev nD) (t : Fin cfg0.N) : Vec Ideal S6x12 .f32 := iblk m c 1 t
abbrev blkB1 (c : Dev nD) (t : Fin cfg0.N) : Vec Ideal S1x12 .f32 := iblk m c 2 t
abbrev blkW2 (c : Dev nD) (t : Fin cfg0.N) : Vec Ideal S12x15 .f32 := iblk m c 3 t
abbrev blkB2 (c : Dev nD) (t : Fin cfg0.N) : Vec Ideal S1x15 .f32 := iblk m c 4 t
abbrev blkW3 (c : Dev nD) (t : Fin cfg0.N) : Vec Ideal S15x4000 .f32 := iblk m c 5 t
abbrev blkB3 (c : Dev nD) (t : Fin cfg0.N) : Vec Ideal S1x4000 .f32 := iblk m c 6 t

/-- The printed index maps, decided over the grid: the input's and the output's blocks move with the point along
    their first axis; every weight's and bias's block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Event `e` of point `t`'s block is event `8 t + e` of the array. -/
def eventOf (t : Fin cfg0.N) (e : Fin 8) : Fin 64 :=
  ⟨t.val * 8 + e.val, by have h := t.isLt; have hN : cfg0.N = 8 := N_0; have := e.isLt; omega⟩

theorem blkX_apply (c : Dev nD) (t : Fin cfg0.N) (e : Fin 8) (f : Fin 6) (q : Fin 500) :
    blkX m c t (ix3 e f q) = argX m c (ix3 (eventOf t e) f q) := by
  obtain ⟨h0, h1, h2, -⟩ := idx_facts t
  rw [← entry_x]
  show V m c main_arg0 (((cfg0.win 0).blk t).view.emb (ix3 e f q)) = V m c main_arg0 (ix3 (eventOf t e) f q)
  refine congrArg (V m c main_arg0) (funext fun a => Fin.ext ?_)
  match a with
  | ⟨0, _⟩ => show win0_0.index t (0 : Fin 3) * 8 + 1 * e.val = t.val * 8 + e.val; rw [h0]; omega
  | ⟨1, _⟩ => show win0_0.index t (1 : Fin 3) * 6 + 1 * f.val = f.val; rw [h1]; omega
  | ⟨2, _⟩ => show win0_0.index t (2 : Fin 3) * 500 + 1 * q.val = q.val; rw [h2]; omega

theorem blkW1_apply (c : Dev nD) (t : Fin cfg0.N) (f : Fin 6) (j : Fin 12) :
    blkW1 m c t (ix2 f j) = argW1 m c (ix2 j f) := by
  obtain ⟨-, -, -, h0, h1, -⟩ := idx_facts t
  refine Eq.trans ?_ (transpose_ix2_apply (argW1 m c) transposes_S12x6_S6x12_1_0 f j)
  rw [← entry_w1]
  show V m c main_v0 (((cfg0.win 1).blk t).view.emb (ix2 f j)) = V m c main_v0 (ix2 f j)
  refine congrArg (V m c main_v0) (funext fun a => Fin.ext ?_)
  match a with
  | ⟨0, _⟩ => show win0_1.index t (0 : Fin 2) * 6 + 1 * f.val = f.val; rw [h0]; omega
  | ⟨1, _⟩ => show win0_1.index t (1 : Fin 2) * 12 + 1 * j.val = j.val; rw [h1]; omega

theorem blkW2_apply (c : Dev nD) (t : Fin cfg0.N) (j : Fin 12) (k : Fin 15) :
    blkW2 m c t (ix2 j k) = argW2 m c (ix2 k j) := by
  obtain ⟨-, -, -, -, -, -, -, h0, h1, -⟩ := idx_facts t
  refine Eq.trans ?_ (transpose_ix2_apply (argW2 m c) transposes_S15x12_S12x15_1_0 j k)
  rw [← entry_w2]
  show V m c main_v1 (((cfg0.win 3).blk t).view.emb (ix2 j k)) = V m c main_v1 (ix2 j k)
  refine congrArg (V m c main_v1) (funext fun a => Fin.ext ?_)
  match a with
  | ⟨0, _⟩ => show win0_3.index t (0 : Fin 2) * 12 + 1 * j.val = j.val; rw [h0]; omega
  | ⟨1, _⟩ => show win0_3.index t (1 : Fin 2) * 15 + 1 * k.val = k.val; rw [h1]; omega

theorem blkW3_apply (c : Dev nD) (t : Fin cfg0.N) (k : Fin 15) (o : Fin 4000) :
    blkW3 m c t (ix2 k o) = argW3 m c (ix2 o k) := by
  obtain ⟨-, -, -, -, -, -, -, -, -, -, -, h0, h1, -⟩ := idx_facts t
  refine Eq.trans ?_ (transpose_ix2_apply (argW3 m c) transposes_S4000x15_S15x4000_1_0 k o)
  rw [← entry_w3]
  show V m c main_v2 (((cfg0.win 5).blk t).view.emb (ix2 k o)) = V m c main_v2 (ix2 k o)
  refine congrArg (V m c main_v2) (funext fun a => Fin.ext ?_)
  match a with
  | ⟨0, _⟩ => show win0_5.index t (0 : Fin 2) * 15 + 1 * k.val = k.val; rw [h0]; omega
  | ⟨1, _⟩ => show win0_5.index t (1 : Fin 2) * 4000 + 1 * o.val = o.val; rw [h1]; omega

theorem blkB1_apply (c : Dev nD) (t : Fin cfg0.N) (j : Fin 12) :
    blkB1 m c t (ix2 (0 : Fin 1) j) = argB1 m c (ix1 j) := by
  obtain ⟨-, -, -, -, -, h0, h1, -⟩ := idx_facts t
  refine Eq.trans ?_ (shapeCast_a_1a_apply (argB1 m c) shapeCasts_S12_S1x12 (0 : Fin 1) j)
  rw [← entry_b1]
  show V m c main_v3 (((cfg0.win 2).blk t).view.emb (ix2 (0 : Fin 1) j)) = V m c main_v3 (ix2 (0 : Fin 1) j)
  refine congrArg (V m c main_v3) (funext fun a => Fin.ext ?_)
  match a with
  | ⟨0, _⟩ => show win0_2.index t (0 : Fin 2) * 1 + 1 * 0 = 0; rw [h0]
  | ⟨1, _⟩ => show win0_2.index t (1 : Fin 2) * 12 + 1 * j.val = j.val; rw [h1]; omega

theorem blkB2_apply (c : Dev nD) (t : Fin cfg0.N) (k : Fin 15) :
    blkB2 m c t (ix2 (0 : Fin 1) k) = argB2 m c (ix1 k) := by
  obtain ⟨-, -, -, -, -, -, -, -, -, h0, h1, -⟩ := idx_facts t
  refine Eq.trans ?_ (shapeCast_a_1a_apply (argB2 m c) shapeCasts_S15_S1x15 (0 : Fin 1) k)
  rw [← entry_b2]
  show V m c main_v4 (((cfg0.win 4).blk t).view.emb (ix2 (0 : Fin 1) k)) = V m c main_v4 (ix2 (0 : Fin 1) k)
  refine congrArg (V m c main_v4) (funext fun a => Fin.ext ?_)
  match a with
  | ⟨0, _⟩ => show win0_4.index t (0 : Fin 2) * 1 + 1 * 0 = 0; rw [h0]
  | ⟨1, _⟩ => show win0_4.index t (1 : Fin 2) * 15 + 1 * k.val = k.val; rw [h1]; omega

theorem blkB3_apply (c : Dev nD) (t : Fin cfg0.N) (o : Fin 4000) :
    blkB3 m c t (ix2 (0 : Fin 1) o) = argB3 m c (ix1 o) := by
  obtain ⟨-, -, -, -, -, -, -, -, -, -, -, -, -, h0, h1, -⟩ := idx_facts t
  refine Eq.trans ?_ (shapeCast_a_1a_apply (argB3 m c) shapeCasts_S4000_S1x4000 (0 : Fin 1) o)
  rw [← entry_b3]
  show V m c main_v5 (((cfg0.win 6).blk t).view.emb (ix2 (0 : Fin 1) o)) = V m c main_v5 (ix2 (0 : Fin 1) o)
  refine congrArg (V m c main_v5) (funext fun a => Fin.ext ?_)
  match a with
  | ⟨0, _⟩ => show win0_6.index t (0 : Fin 2) * 1 + 1 * 0 = 0; rw [h0]
  | ⟨1, _⟩ => show win0_6.index t (1 : Fin 2) * 4000 + 1 * o.val = o.val; rw [h1]; omega

/-! ## What a point writes back -/

/-- Row `e` of point `t`'s output block is row `8 t + e` of the array. -/
theorem out_emb (t : Fin cfg0.N) (e : Fin 8) (o : Fin 4000) :
    ((cfg0.win 7).blk t).view.emb (ix2 e o) = ix2 (eventOf t e) o := by
  obtain ⟨-, -, -, -, -, -, -, -, -, -, -, -, -, -, -, h0, h1⟩ := idx_facts t
  refine funext fun a => Fin.ext ?_
  match a with
  | ⟨0, _⟩ => show win0_7.index t (0 : Fin 2) * 8 + 1 * e.val = t.val * 8 + e.val; rw [h0]; omega
  | ⟨1, _⟩ => show win0_7.index t (1 : Fin 2) * 4000 + 1 * o.val = o.val; rw [h1]; omega

/-- One track's contribution computed from the point's blocks is the specification's, of the arguments. -/
theorem trackVal_blocks (c : Dev nD) (t : Fin cfg0.N) (e : Fin 8) (q : Fin 500) (o : Fin 4000) :
    trackVal (blkX m c t) (blkW1 m c t) (blkB1 m c t) (blkW2 m c t) (blkB2 m c t) (blkW3 m c t) (blkB3 m c t) e q o
      = contrib (argX m c) (argW1 m c) (argB1 m c) (argW2 m c) (argB2 m c) (argW3 m c) (argB3 m c) (eventOf t e) q o := by
  have e0 : (fun f => blkX m c t (ix3 e f q)) = fun f => argX m c (ix3 (eventOf t e) f q) :=
    funext fun f => blkX_apply m c t e f q
  have e1 : (fun (j : Fin 12) (f : Fin 6) => blkW1 m c t (ix2 f j)) = fun j f => argW1 m c (ix2 j f) :=
    funext fun j => funext fun f => blkW1_apply m c t f j
  have e2 : (fun (j : Fin 12) => blkB1 m c t (ix2 (0 : Fin 1) j)) = fun j => argB1 m c (ix1 j) :=
    funext fun j => blkB1_apply m c t j
  have e3 : (fun (k : Fin 15) (j : Fin 12) => blkW2 m c t (ix2 j k)) = fun k j => argW2 m c (ix2 k j) :=
    funext fun k => funext fun j => blkW2_apply m c t j k
  have e4 : (fun (k : Fin 15) => blkB2 m c t (ix2 (0 : Fin 1) k)) = fun k => argB2 m c (ix1 k) :=
    funext fun k => blkB2_apply m c t k
  have e5 : (fun (o' : Fin 4000) (k : Fin 15) => blkW3 m c t (ix2 k o')) = fun o' k => argW3 m c (ix2 o' k) :=
    funext fun o' => funext fun k => blkW3_apply m c t k o'
  have e6 : (fun (o' : Fin 4000) => blkB3 m c t (ix2 (0 : Fin 1) o')) = fun o' => argB3 m c (ix1 o') :=
    funext fun o' => blkB3_apply m c t o'
  show softplus (layer3 (fun f => blkX m c t (ix3 e f q)) (fun j f => blkW1 m c t (ix2 f j)) (fun j => blkB1 m c t (ix2 (0 : Fin 1) j))
      (fun k j => blkW2 m c t (ix2 j k)) (fun k => blkB2 m c t (ix2 (0 : Fin 1) k)) (fun o' k => blkW3 m c t (ix2 k o'))
      (fun o' => blkB3 m c t (ix2 (0 : Fin 1) o')) o) = _
  rw [e0, e1, e2, e3, e4, e5, e6]
  rfl

/-- WHAT POINT `t` WRITES BACK is rows `8 t … 8 t + 7` of the specification's result array. -/
theorem flushed_eq (c : Dev nD) (t : Fin cfg0.N) :
    (dats m 0 c).flushed 7 t = ((cfg0.win 7).blk t).view.read (Elt Ideal) (resultOf m c) := by
  rw [Cert.KernelIdeal.Value.flushed7_A]
  funext j
  obtain ⟨e, o, rfl⟩ : ∃ (e : Fin 8) (o : Fin 4000), j = ix2 e o := ⟨j 0, j 1, eq_ix2 j⟩
  show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (blkX m c t) (blkW1 m c t) (blkB1 m c t) (blkW2 m c t) (blkB2 m c t) (blkW3 m c t) (blkB3 m c t) (ix2 e o)
    = resultOf m c (((cfg0.win 7).blk t).view.emb (ix2 e o))
  refine (block_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (blkX m c t) (blkW1 m c t) (blkB1 m c t) (blkW2 m c t) (blkB2 m c t) (blkW3 m c t) (blkB3 m c t) e o).trans ?_
  rw [out_emb]
  show _ = ∑ q : Fin 500, contrib (argX m c) (argW1 m c) (argB1 m c) (argW2 m c) (argB2 m c) (argW3 m c) (argB3 m c) (eventOf t e) q o
  exact Finset.sum_congr rfl fun q _ => trackVal_blocks m c t e q o

/-! ## The cover, the array, the run -/

/-- An index of the array is in point `t`'s block iff each coordinate is in the block's range on its axis. -/
theorem mem_blk (t : Fin cfg0.N) (i : S64x4000.Idx) :
    i ∈ ((cfg0.win 7).blk t).view.set ↔ ∀ a : Fin 2, win0_7.index t a * S8x4000.size a ≤ (i a).val ∧ (i a).val < win0_7.index t a * S8x4000.size a + S8x4000.size a := by
  show i ∈ ((View.whole main_v6).slice (win0_7.rect t)).set ↔ _
  rw [View.set_slice_whole, Rect.mem_set_unit]
  exact Iff.rfl

/-- Every index of the array lies in the block of the point its row belongs to. -/
theorem cover (i : S64x4000.Idx) : ∃ t : Fin cfg0.N, (cfg0.win 7).flush t = true ∧ i ∈ ((cfg0.win 7).blk t).view.set := by
  have hi0 : (i 0).val < 64 := (i 0).isLt
  have hi1 : (i 1).val < 4000 := (i 1).isLt
  have hN : cfg0.N = 8 := N_0
  let t : Fin cfg0.N := ⟨(i 0).val / 8, by omega⟩
  obtain ⟨-, -, -, -, -, -, -, -, -, -, -, -, -, -, -, h0, h1⟩ := idx_facts t
  refine ⟨t, flush0_7 t, ?_⟩
  rw [mem_blk]
  intro a
  match a with
  | ⟨0, _⟩ =>
    show win0_7.index t (0 : Fin 2) * 8 ≤ (i 0).val ∧ (i 0).val < win0_7.index t (0 : Fin 2) * 8 + 8
    rw [h0]; show (i 0).val / 8 * 8 ≤ (i 0).val ∧ (i 0).val < (i 0).val / 8 * 8 + 8; omega
  | ⟨1, _⟩ =>
    show win0_7.index t (1 : Fin 2) * 4000 ≤ (i 1).val ∧ (i 1).val < win0_7.index t (1 : Fin 2) * 4000 + 4000
    rw [h1]; omega

/-- THE ARRAY after the run is the specification's result of the argument arrays. -/
theorem final (c : Dev nD) : (dats m 0 c).arrAt 7 cfg0.N = resultOf m c :=
  (dats m 0 c).arrAt_eq_of_cover 7 (resultOf m c) (fun t _ => flushed_eq m c t) (cover)

/-- The kernel's run: every weakly fair execution ends with the result array at the specification's result of the
    arguments, and the arguments unchanged. -/
theorem run : θ_run defs (onTc (τ := τ) (main (F := Ideal))) ⟨m, fun _ => 0, ρ⟩ fun r => ∀ c : Dev nD,
      r.2.mem ((c : Thread nD τ).loc main_v6) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.WholeArray

end
-- ==== Proof.Reference.lean ====
/-
  The reference program computes the network of the specification.

  Reading the reference one operation at a time: the input [64,6,500] is transposed to [64,500,6]; three
  contractions against the weights [12,6], [15,12], [4000,15] each sum over the last axis of the running array and
  the second axis of the weight; each bias is broadcast along the last axis and added; after the first two
  affine maps a value that is at least zero is kept and the others are scaled by the slope word; after the third
  the stable form of softplus is taken, behind a guard "the difference is unequal to itself" which is never
  true on the extended reals; finally the 500 tracks of an event are summed from the initial value zero.

  Each stage below is read at an index split into its coordinates (event, track, unit); the index maps of the
  layout operations are identified with the coordinate constructors once, as separate equations, and the stages
  are then chained from the inside out.
-/
import proofs.«166271_j59038620451119_1_alg».proof.Proof.Gen.ReferenceIdeal.Read
import proofs.«166271_j59038620451119_1_alg».proof.Proof.Spec
import Idealize.ShloMosaic.Lib.ValueIdx
import Idealize.ShloMosaic.PureOps.Ideal.Laws

noncomputable section

namespace Cert.ReferenceIdeal.RefValue
open Idealize.ShloMosaic Cert.ReferenceIdeal Cert.ReferenceIdeal.Read Cert.TracksMlp

variable (x0 : (⟨S64x6x500, .f32⟩ : BufTy).Contents (Elt Ideal)) (x1 : (⟨S12x6, .f32⟩ : BufTy).Contents (Elt Ideal))
    (x2 : (⟨S12, .f32⟩ : BufTy).Contents (Elt Ideal)) (x3 : (⟨S15x12, .f32⟩ : BufTy).Contents (Elt Ideal))
    (x4 : (⟨S15, .f32⟩ : BufTy).Contents (Elt Ideal)) (x5 : (⟨S4000x15, .f32⟩ : BufTy).Contents (Elt Ideal))
    (x6 : (⟨S4000, .f32⟩ : BufTy).Contents (Elt Ideal))

/-! ## The index maps, at coordinates -/

/-- The transposed input read through the first contraction's left index is the input at (event, feature, track). -/
theorem idx_v0_v1 (e : Fin 64) (t : Fin 500) (j : Fin 12) (f : Fin 6) :
    idx_main_v0 (lidx_main_v1 (ValueIdx.ix3 e t j) f) = ValueIdx.ix3 e f t :=
  funext fun a => by match a with | ⟨0, _⟩ => rfl | ⟨1, _⟩ => rfl | ⟨2, _⟩ => rfl

/-- The first weight is read at (unit, feature). -/
theorem ridx_v1 (e : Fin 64) (t : Fin 500) (j : Fin 12) (f : Fin 6) :
    ridx_main_v1 (ValueIdx.ix3 e t j) f = ValueIdx.ix2 j f :=
  funext fun a => by match a with | ⟨0, _⟩ => rfl | ⟨1, _⟩ => rfl

/-- The first bias, broadcast twice, is read at the unit. -/
theorem idx_v2_v3 (e : Fin 64) (t : Fin 500) (j : Fin 12) :
    idx_main_v2 (idx_main_v3 (ValueIdx.ix3 e t j)) = ValueIdx.ix1 j :=
  funext fun a => by match a with | ⟨0, _⟩ => rfl

/-- The second contraction reads the first hidden layer at (event, track, unit). -/
theorem lidx_v10 (e : Fin 64) (t : Fin 500) (k : Fin 15) (j : Fin 12) :
    lidx_main_v10 (ValueIdx.ix3 e t k) j = ValueIdx.ix3 e t j :=
  funext fun a => by match a with | ⟨0, _⟩ => rfl | ⟨1, _⟩ => rfl | ⟨2, _⟩ => rfl

/-- The second weight is read at (unit, previous unit). -/
theorem ridx_v10 (e : Fin 64) (t : Fin 500) (k : Fin 15) (j : Fin 12) :
    ridx_main_v10 (ValueIdx.ix3 e t k) j = ValueIdx.ix2 k j :=
  funext fun a => by match a with | ⟨0, _⟩ => rfl | ⟨1, _⟩ => rfl

/-- The second bias, broadcast twice, is read at the unit. -/
theorem idx_v11_v12 (e : Fin 64) (t : Fin 500) (k : Fin 15) :
    idx_main_v11 (idx_main_v12 (ValueIdx.ix3 e t k)) = ValueIdx.ix1 k :=
  funext fun a => by match a with | ⟨0, _⟩ => rfl

/-- The third contraction reads the second hidden layer at (event, track, unit). -/
theorem lidx_v19 (e : Fin 64) (t : Fin 500) (o : Fin 4000) (k : Fin 15) :
    lidx_main_v19 (ValueIdx.ix3 e t o) k = ValueIdx.ix3 e t k :=
  funext fun a => by match a with | ⟨0, _⟩ => rfl | ⟨1, _⟩ => rfl | ⟨2, _⟩ => rfl

/-- The third weight is read at (bin, unit). -/
theorem ridx_v19 (e : Fin 64) (t : Fin 500) (o : Fin 4000) (k : Fin 15) :
    ridx_main_v19 (ValueIdx.ix3 e t o) k = ValueIdx.ix2 o k :=
  funext fun a => by match a with | ⟨0, _⟩ => rfl | ⟨1, _⟩ => rfl

/-- The third bias, broadcast twice, is read at the bin. -/
theorem idx_v20_v21 (e : Fin 64) (t : Fin 500) (o : Fin 4000) :
    idx_main_v20 (idx_main_v21 (ValueIdx.ix3 e t o)) = ValueIdx.ix1 o :=
  funext fun a => by match a with | ⟨0, _⟩ => rfl

/-- The track sum at (event, bin) reads track `t` at (event, track, bin). -/
theorem idx_v24 (e : Fin 64) (o : Fin 4000) (t : Fin 500) :
    idx_main_v24 (ValueIdx.ix2 e o) t = ValueIdx.ix3 e t o :=
  funext fun a => by match a with | ⟨0, _⟩ => rfl | ⟨1, _⟩ => rfl | ⟨2, _⟩ => rfl

/-! ## The first layer -/

/-- The first affine map at (event, track, unit). -/
theorem v4_at (e : Fin 64) (t : Fin 500) (j : Fin 12) :
    val_main_v4 (F := Ideal) x0 x1 x2 (ValueIdx.ix3 e t j)
      = ∑ f : Fin 6, x0 (ValueIdx.ix3 e f t) * x1 (ValueIdx.ix2 j f) + x2 (ValueIdx.ix1 j) := by
  rw [val_main_v4_apply, val_main_v1_apply, val_main_v3_apply, val_main_v2_apply, idx_v2_v3, Ideal.addf_def]
  refine congrArg (· + _) (Finset.sum_congr rfl fun f _ => ?_)
  rw [val_main_v0_apply, idx_v0_v1, ridx_v1]

/-- The first hidden layer at (event, track, unit). -/
theorem v9_at (e : Fin 64) (t : Fin 500) (j : Fin 12) :
    val_main_v9 (F := Ideal) x0 x1 x2 (ValueIdx.ix3 e t j)
      = layer1 (fun f => x0 (ValueIdx.ix3 e f t)) (fun j f => x1 (ValueIdx.ix2 j f)) (fun j => x2 (ValueIdx.ix1 j)) j := by
  rw [val_main_v9_apply, val_main_v6_apply, val_main_v8_apply, val_main_v5_apply, val_main_v7_apply,
    val_main_cst_apply, val_main_cst_0_apply, v4_at]
  rfl

/-! ## The second layer -/

/-- The second affine map at (event, track, unit). -/
theorem v13_at (e : Fin 64) (t : Fin 500) (k : Fin 15) :
    val_main_v13 (F := Ideal) x0 x1 x2 x3 x4 (ValueIdx.ix3 e t k)
      = ∑ j : Fin 12, layer1 (fun f => x0 (ValueIdx.ix3 e f t)) (fun j f => x1 (ValueIdx.ix2 j f))
          (fun j => x2 (ValueIdx.ix1 j)) j * x3 (ValueIdx.ix2 k j) + x4 (ValueIdx.ix1 k) := by
  rw [val_main_v13_apply, val_main_v10_apply, val_main_v12_apply, val_main_v11_apply, idx_v11_v12, Ideal.addf_def]
  refine congrArg (· + _) (Finset.sum_congr rfl fun j _ => ?_)
  rw [lidx_v10, ridx_v10, v9_at]

/-- The second hidden layer at (event, track, unit). -/
theorem v18_at (e : Fin 64) (t : Fin 500) (k : Fin 15) :
    val_main_v18 (F := Ideal) x0 x1 x2 x3 x4 (ValueIdx.ix3 e t k)
      = layer2 (fun f => x0 (ValueIdx.ix3 e f t)) (fun j f => x1 (ValueIdx.ix2 j f)) (fun j => x2 (ValueIdx.ix1 j))
          (fun k j => x3 (ValueIdx.ix2 k j)) (fun k => x4 (ValueIdx.ix1 k)) k := by
  rw [val_main_v18_apply, val_main_v15_apply, val_main_v17_apply, val_main_v14_apply, val_main_v16_apply,
    val_main_cst_1_apply, val_main_cst_2_apply, v13_at]
  rfl

/-! ## The third layer and the softplus -/

/-- The third affine map at (event, track, bin). -/
theorem v22_at (e : Fin 64) (t : Fin 500) (o : Fin 4000) :
    val_main_v22 (F := Ideal) x0 x1 x2 x3 x4 x5 x6 (ValueIdx.ix3 e t o)
      = layer3 (fun f => x0 (ValueIdx.ix3 e f t)) (fun j f => x1 (ValueIdx.ix2 j f)) (fun j => x2 (ValueIdx.ix1 j))
          (fun k j => x3 (ValueIdx.ix2 k j)) (fun k => x4 (ValueIdx.ix1 k))
          (fun o k => x5 (ValueIdx.ix2 o k)) (fun o => x6 (ValueIdx.ix1 o)) o := by
  rw [val_main_v22_apply, val_main_v19_apply, val_main_v21_apply, val_main_v20_apply, idx_v20_v21, Ideal.addf_def]
  unfold layer3
  refine congrArg (· + _) (Finset.sum_congr rfl fun k _ => ?_)
  rw [lidx_v19, ridx_v19, v18_at]

/-- The softplus stage at (event, track, bin) is one track's contribution. -/
theorem v23_at (e : Fin 64) (t : Fin 500) (o : Fin 4000) :
    val_main_v23 (F := Ideal) x0 x1 x2 x3 x4 x5 x6 (ValueIdx.ix3 e t o) = contrib x0 x1 x2 x3 x4 x5 x6 e t o := by
  rw [val_main_v23_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply, v22_at]
  exact softplus_reference_form _

/-! ## The sum over tracks -/

theorem reference_is_result (x0 : (⟨S64x6x500, .f32⟩ : BufTy).Contents (Elt Ideal)) (x1 : (⟨S12x6, .f32⟩ : BufTy).Contents (Elt Ideal))
    (x2 : (⟨S12, .f32⟩ : BufTy).Contents (Elt Ideal)) (x3 : (⟨S15x12, .f32⟩ : BufTy).Contents (Elt Ideal))
    (x4 : (⟨S15, .f32⟩ : BufTy).Contents (Elt Ideal)) (x5 : (⟨S4000x15, .f32⟩ : BufTy).Contents (Elt Ideal))
    (x6 : (⟨S4000, .f32⟩ : BufTy).Contents (Elt Ideal)) :
    val_main_v24 (F := Ideal) x0 x1 x2 x3 x4 x5 x6 = result x0 x1 x2 x3 x4 x5 x6 := by
  funext i
  -- split the output index into its event and its bin
  obtain ⟨e, o, rfl⟩ : ∃ (e : Fin 64) (o : Fin 4000), i = ValueIdx.ix2 e o := ⟨i 0, i 1, ValueIdx.eq_ix2 i⟩
  rw [val_main_v24_apply, val_main_cst_3_apply, Ideal.ofBits_def, Ideal.ofBits_zero_f32, zero_add]
  -- the coordinates of `ix2 e o` compute, so the specification's sum is over `contrib … e t o`
  show _ = ∑ t : Fin 500, contrib x0 x1 x2 x3 x4 x5 x6 e t o
  refine Finset.sum_congr rfl fun t _ => ?_
  rw [idx_v24, v23_at]

end Cert.ReferenceIdeal.RefValue

end
-- ==== Proof.lean ====
/-
  The kernel and its reference compute one function.

  Both programs apply, to each of the 500 tracks of each of the 64 events, three affine layers (6 to 12 to 15 to 4000)
  with a leaky rectifier after the first two and softplus after the third, and sum the 4000-bin result over an
  event's tracks. The reference does so with whole-array contractions and one sum over the track axis. The kernel
  takes eight events at a time, holds the weights transposed, flattens (event, track) into rows, and accumulates the
  track sum in five chunks of a hundred tracks from zero. Read over the extended reals every operation of one side
  is the same operation of the other at the same entries; what differs is where an entry sits (a transpose, a
  row-major regrouping, a block offset) and the order in which the 500 summands are added, and addition on the
  extended reals is commutative and associative. The inputs' finiteness is never used.

  The pieces: the network as one function (Spec); the reference's result is that function (Reference); one chunk's
  third layer and one chunk's accumulation read at an index (KernelChunk, KernelTail); the body's block value
  (KernelBody); the blocks assembled into the array and the kernel's run (KernelArray). The idealization rewrote no
  operation, so the kernel's idealized text is its own text read over the extended reals.
-/
import proofs.«166271_j59038620451119_1_alg».proof.Defs
import proofs.«166271_j59038620451119_1_alg».proof.Proof.Gen.Kernel
import proofs.«166271_j59038620451119_1_alg».proof.Proof.Gen.Kernel.Skeleton
import proofs.«166271_j59038620451119_1_alg».proof.Proof.Gen.Kernel.Launch
import proofs.«166271_j59038620451119_1_alg».proof.Proof.Gen.Kernel.Points
import proofs.«166271_j59038620451119_1_alg».proof.Proof.Gen.Kernel.Frame
import proofs.«166271_j59038620451119_1_alg».proof.Proof.Gen.KernelIdeal
import proofs.«166271_j59038620451119_1_alg».proof.Proof.Gen.KernelIdeal.Skeleton
import proofs.«166271_j59038620451119_1_alg».proof.Proof.Gen.KernelIdeal.Launch
import proofs.«166271_j59038620451119_1_alg».proof.Proof.Gen.KernelIdeal.Points
import proofs.«166271_j59038620451119_1_alg».proof.Proof.Gen.KernelIdeal.Frame
import proofs.«166271_j59038620451119_1_alg».proof.Proof.Gen.ReferenceIdeal
import proofs.«166271_j59038620451119_1_alg».proof.Proof.Gen.Pre_finite_inputs
import proofs.«166271_j59038620451119_1_alg».proof.Proof.Gen.KernelIdeal.Value
import proofs.«166271_j59038620451119_1_alg».proof.Proof.Gen.ReferenceIdeal.Run
import proofs.«166271_j59038620451119_1_alg».proof.Proof.Gen.ReferenceIdeal.Read
import proofs.«166271_j59038620451119_1_alg».proof.Proof.KernelArray
import proofs.«166271_j59038620451119_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does its text read over the extended reals. -/
theorem frame_kernel_ideal : Cert.frame_KernelIdeal := fun m ρ _ => Cert.KernelIdeal.Gen.frame m ρ

/-- The reference's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From memories that agree on the arguments both programs end with the specification's result array of those
    arguments: the kernel by its blocks, the reference operation by operation. -/
theorem algebraic : Cert.algebraic_KernelIdeal_ReferenceIdeal := by
  intro m ρ m' ρ' _ hagree
  refine ⟨fun c => Cert.KernelIdeal.WholeArray.resultOf m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.reference_is_result,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
